-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S_ : Shape := ⟨0, ![]⟩

class Facts : Prop where
  bcast_S_S8x10000x11 : S_.BroadcastsInDim S8x10000x11 (![] : Fin 0 → Fin S8x10000x11.rank)
  reducesTo_S8x10000x11_S_d0_1_2 : S8x10000x11.ReducesTo [0, 1, 2] S_
  h_S_ : 0 < S_.numel
  bcast_S_S32x11 : S_.BroadcastsInDim S32x11 (![] : Fin 0 → Fin S32x11.rank)
  reducesTo_S32x11_S_d0_1 : S32x11.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  bcast_S_S1x10000 : S_.BroadcastsInDim S1x10000 (![] : Fin 0 → Fin S1x10000.rank)
  reducesTo_S1x10000_S_d0_1 : S1x10000.ReducesTo [0, 1] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S1x1 .f32) (main_arg13 : FVec F S1 .f32) (main_arg14 : FVec F S1x10000 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x1 .f32 := Host.absf main_arg12
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x10000 .f32 := Host.absf main_arg14
  let main_cst_24 : FVec F S_ .f32 := constant S_ .f32 0x7F800000#32
  let main_v65 : FVec F S1x10000 .f32 := broadcastInDim S1x10000 ![] bcast_S_S1x10000 main_cst_24
  let main_v66 : IVec S1x10000 1 := cmpf .olt main_v64 main_v65
  let main_c_25 : IVec S_ 1 := constantI S_ 1 1#1
  let main_v67 : IVec S_ 1 := (fun x v => Host.reduce IntOp.andi x v reducesTo_S1x10000_S_d0_1 h_S_) main_v66 main_c_25
  fn_part4 (F := F) main_arg15 main_v63 main_v67

def fn_part2 {F : FTy → Type} [FloatOps F] (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg10
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S32 .f32) (main_arg6 : FVec F S32x64 .f32) (main_arg7 : FVec F S32 .f32) (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8x10000x11 .f32) (main_arg1 : IVec S2x320000 32) (main_arg2 : FVec F S32x11 .f32) (main_arg3 : FVec F S32 .f32) (main_arg4 : FVec F S32x32 .f32) (main_arg5 : FVec F S32 .f32) (main_arg6 : FVec F S32x64 .f32) (main_arg7 : FVec F S32 .f32) (main_arg8 : FVec F S32x32 .f32) (main_arg9 : FVec F S32 .f32) (main_arg10 : FVec F S1x32 .f32) (main_arg11 : FVec F S1 .f32) (main_arg12 : FVec F S1x1 .f32) (main_arg13 : FVec F S1 .f32) (main_arg14 : FVec F S1x10000 .f32) (main_arg15 : FVec F S1 .f32) : IVec S_ 1 :=
  let main_v0 : FVec F S8x10000x11 .f32 := Host.absf main_arg0
  let main_cst : FVec F S_ .f32 := constant S_ .f32 0x7F800000#32
  let main_v1 : FVec F S8x10000x11 .f32 := broadcastInDim S8x10000x11 ![] bcast_S_S8x10000x11 main_cst
  let main_v2 : IVec S8x10000x11 1 := cmpf .olt main_v0 main_v1
  let main_c : IVec S_ 1 := constantI S_ 1 1#1
  let main_v3 : IVec S_ 1 := (fun x v => Host.reduce IntOp.andi x v reducesTo_S8x10000x11_S_d0_1_2 h_S_) main_v2 main_c
  let main_v4 : FVec F S32x11 .f32 := Host.absf main_arg2
  let main_cst_0 : FVec F S_ .f32 := constant S_ .f32 0x7F800000#32
  let main_v5 : FVec F S32x11 .f32 := broadcastInDim S32x11 ![] bcast_S_S32x11 main_cst_0
  let main_v6 : IVec S32x11 1 := cmpf .olt main_v4 main_v5
  let main_c_1 : IVec S_ 1 := constantI S_ 1 1#1
  let main_v7 : IVec S_ 1 := (fun x v => Host.reduce IntOp.andi x v reducesTo_S32x11_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S11x32 : Shape := ⟨2, ![11, 32]⟩
abbrev S64x32 : Shape := ⟨2, ![64, 32]⟩
abbrev S32x1 : Shape := ⟨2, ![32, 1]⟩
abbrev S8x10000x32 : Shape := ⟨3, ![8, 10000, 32]⟩
abbrev S1x10000x11 : Shape := ⟨3, ![1, 10000, 11]⟩
abbrev S1x10000x32 : Shape := ⟨3, ![1, 10000, 32]⟩
abbrev S10000x11 : Shape := ⟨2, ![10000, 11]⟩
abbrev S10000x32 : Shape := ⟨2, ![10000, 32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S8x320000x32 : Shape := ⟨3, ![8, 320000, 32]⟩
abbrev S8x320000x64 : Shape := ⟨3, ![8, 320000, 64]⟩
abbrev S1x10000x64 : Shape := ⟨3, ![1, 10000, 64]⟩
abbrev S10000x64 : Shape := ⟨2, ![10000, 64]⟩
abbrev S10000 : Shape := ⟨1, ![10000]⟩
abbrev S1x10000x1 : Shape := ⟨3, ![1, 10000, 1]⟩
abbrev S8x10000x1 : Shape := ⟨3, ![8, 10000, 1]⟩
abbrev S10000x1 : Shape := ⟨2, ![10000, 1]⟩
abbrev S8x10000 : Shape := ⟨2, ![8, 10000]⟩
abbrev S8x1 : Shape := ⟨2, ![8, 1]⟩

abbrev nBuf : Space → Nat
  | .hbm => 102
  | .vmem => 24
  | .smem => 0
  | _ => 0

abbrev bufTy : (tb : Table) → Fin (tcTables nBuf tb) → BufTy
  | .hbm, ⟨0, _⟩ => ⟨S8x10000x11, .f32⟩
  | .hbm, ⟨1, _⟩ => ⟨S2x320000, .i32⟩
  | .hbm, ⟨2, _⟩ => ⟨S32x11, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x1, .f32⟩
  | .hbm, ⟨13, _⟩ => ⟨S1, .f32⟩
  | .hbm, ⟨14, _⟩ => ⟨S1x10000, .f32⟩
  | .hbm, ⟨15, _⟩ => ⟨S1, .f32⟩
  | .hbm, ⟨16, _⟩ => ⟨S11x32, .f32⟩
  | .hbm, ⟨17, _⟩ => ⟨S32x32, .f32⟩
  | .hbm, ⟨18, _⟩ => ⟨S64x32, .f32⟩
  | .hbm, ⟨19, _⟩ => ⟨S32x32, .f32⟩
  | .hbm, ⟨20, _⟩ => ⟨S32x1, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x1, .f32⟩
  | .hbm, ⟨26, _⟩ => ⟨S1x1, .f32⟩
  | .hbm, ⟨27, _⟩ => ⟨S8x10000x32, .bf16⟩
  | .hbm, ⟨28, _⟩ => ⟨S1x320000, .i32⟩
  | .hbm, ⟨29, _⟩ => ⟨S320000, .i32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S8x320000x32, .bf16⟩
  | .hbm, ⟨39, _⟩ => ⟨S1x320000, .i32⟩
  | .hbm, ⟨40, _⟩ => ⟨S320000, .i32⟩
  | .hbm, ⟨41, _⟩ => ⟨S_, .i32⟩
  | .hbm, ⟨42, _⟩ => ⟨S320000, .i32⟩
  | .hbm, ⟨43, _⟩ => ⟨S320000, .i1⟩
  | .hbm, ⟨44, _⟩ => ⟨S_, .i32⟩
  | .hbm, ⟨45, _⟩ => ⟨S320000, .i32⟩
  | .hbm, ⟨46, _⟩ => ⟨S320000, .i32⟩
  | .hbm, ⟨47, _⟩ => ⟨S320000, .i32⟩
  | .hbm, ⟨48, _⟩ => ⟨S320000x1, .i32⟩
  | .hbm, ⟨49, _⟩ => ⟨S8x320000x32, .bf16⟩
  | .hbm, ⟨50, _⟩ => ⟨S8x320000x64, .bf16⟩
  | .hbm, ⟨51, _⟩ => ⟨S8x320000x32, .bf16⟩
  | .hbm, ⟨52, _⟩ => ⟨S8x320000x32, .f32⟩
  | .hbm, ⟨53, _⟩ => ⟨S_, .f32⟩
  | .hbm, ⟨54, _⟩ => ⟨S8x10000x32, .f32⟩
  | .hbm, ⟨55, _⟩ => ⟨S1x320000, .i32⟩
  | .hbm, ⟨56, _⟩ => ⟨S320000, .i32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S8x10000x32, .f32⟩
  | .hbm, ⟨66, _⟩ => ⟨S_, .f32⟩
  | .hbm, ⟨67, _⟩ => ⟨S10000, .f32⟩
  | .hbm, ⟨68, _⟩ => ⟨S1x320000, .i32⟩
  | .hbm, ⟨69, _⟩ => ⟨S320000, .i32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S320000x1, .i32⟩
  | .hbm, ⟨78, _⟩ => ⟨S_, .f32⟩
  | .hbm, ⟨79, _⟩ => ⟨S320000, .f32⟩
  | .hbm, ⟨80, _⟩ => ⟨S10000, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S1x10000x1, .f32⟩
  | .hbm, ⟨85, _⟩ => ⟨S8x10000x32, .f32⟩
  | .hbm, ⟨86, _⟩ => ⟨S8x10000x32, .f32⟩
  | .hbm, ⟨87, _⟩ => ⟨S8x10000x1, .f32⟩
  | .hbm, ⟨88, _⟩ => ⟨S8x10000, .f32⟩
  | .hbm, ⟨89, _⟩ => ⟨S10000x1, .f32⟩
  | .hbm, ⟨90, _⟩ => ⟨S8x1, .f32⟩
  | .hbm, ⟨91, _⟩ => ⟨S1x1, .f32⟩
  | .hbm, ⟨92, _⟩ => ⟨S8x1, .f32⟩
  | .hbm, ⟨93, _⟩ => ⟨S8x1, .f32⟩
  | .hbm, ⟨94, _⟩ => ⟨S8x1, .f32⟩
  | .hbm, ⟨95, _⟩ => ⟨S8x1, .f32⟩
  | .hbm, ⟨96, _⟩ => ⟨S_, .f32⟩
  | .hbm, ⟨97, _⟩ => ⟨S8x1, .f32⟩
  | .hbm, ⟨98, _⟩ => ⟨S8x1, .f32⟩
  | .hbm, ⟨99, _⟩ => ⟨S_, .f32⟩
  | .hbm, ⟨100, _⟩ => ⟨S8x1, .f32⟩
  | .hbm, ⟨101, _⟩ => ⟨S8x1, .f32⟩
  | .local _ .vmem, ⟨0, _⟩ => ⟨S1x10000x11, .f32⟩
  | .local _ .vmem, ⟨1, _⟩ => ⟨S1x10000x11, .f32⟩
  | .local _ .vmem, ⟨2, _⟩ => ⟨S11x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S1x10000x32, .bf16⟩
  | .local _ .vmem, ⟨7, _⟩ => ⟨S1x10000x32, .bf16⟩
  | .local _ .vmem, ⟨8, _⟩ => ⟨S1x10000x64, .bf16⟩
  | .local _ .vmem, ⟨9, _⟩ => ⟨S1x10000x64, .bf16⟩
  | .local _ .vmem, ⟨10, _⟩ => ⟨S64x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S1x10000x32, .bf16⟩
  | .local _ .vmem, ⟨15, _⟩ => ⟨S1x10000x32, .bf16⟩
  | .local _ .vmem, ⟨16, _⟩ => ⟨S1x10000x32, .f32⟩
  | .local _ .vmem, ⟨17, _⟩ => ⟨S1x10000x32, .f32⟩
  | .local _ .vmem, ⟨18, _⟩ => ⟨S32x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | .local _ .vmem, ⟨22, _⟩ => ⟨S1x10000x1, .f32⟩
  | .local _ .vmem, ⟨23, _⟩ => ⟨S1x10000x1, .f32⟩
  | _, _ => ⟨S8x10000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x10000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S32x11_S11x32_1_0 : S32x11.Transposes [1, 0] S11x32
  transposes_S32x32_S32x32_1_0 : S32x32.Transposes [1, 0] S32x32
  transposes_S32x64_S64x32_1_0 : S32x64.Transposes [1, 0] S64x32
  transposes_S1x32_S32x1_1_0 : S1x32.Transposes [1, 0] S32x1
  shapeCasts_S32_S1x32 : S32.ShapeCasts S1x32
  shapeCasts_S1_S1x1 : S1.ShapeCasts S1x1
  inb_S1x10000x11_S1x10000x11_0_0_0 : ∀ a, (![0, 0, 0] : Fin 3 → Nat) a + S1x10000x11.size a ≤ S1x10000x11.size a
  h_S1x10000x11 : 0 < S1x10000x11.numel
  shapeCasts_S1x10000x11_S10000x11 : S1x10000x11.ShapeCasts S10000x11
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  shapeCasts_S11x32_S11x32 : S11x32.ShapeCasts S11x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x10000x32_S1x10000x32_0_0_0 : ∀ a, (![0, 0, 0] : Fin 3 → Nat) a + S1x10000x32.size a ≤ S1x10000x32.size a
  h_S1x10000x32 : 0 < S1x10000x32.numel
  shapeCasts_S1x10000x32_S10000x32 : S1x10000x32.ShapeCasts S10000x32
  shapeCasts_S10000x32_S1x10000x32 : S10000x32.ShapeCasts S1x10000x32
  packedbf16_S1x10000x32_S1x10000x32_0_0_0 : (Rect.unit (s := S1x10000x32) ![0, 0, 0] S1x10000x32.size inb_S1x10000x32_S1x10000x32_0_0_0).PackedRows (EltTy.packing .bf16)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  concatenates_S8x320000x32_S8x320000x32_S8x320000x64_d2 : Shape.Concatenates [S8x320000x32, S8x320000x32] S8x320000x64 2
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  bcast_S_S8x10000x32 : S_.BroadcastsInDim S8x10000x32 (![] : Fin 0 → Fin S8x10000x32.rank)
  bcast_S_S10000 : S_.BroadcastsInDim S10000 (![] : Fin 0 → Fin S10000.rank)
  bcast_S10000_S1x10000x1_1 : S10000.BroadcastsInDim S1x10000x1 (![1] : Fin 1 → Fin S1x10000x1.rank)
  bcast_S1x10000x1_S8x10000x32_0_1_2 : S1x10000x1.BroadcastsInDim S8x10000x32 (![0, 1, 2] : Fin 3 → Fin S8x10000x32.rank)
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  shapeCasts_S10000x1_S1x10000x1 : S10000x1.ShapeCasts S1x10000x1
  shapeCasts_S8x10000x1_S8x10000 : S8x10000x1.ShapeCasts S8x10000
  transposes_S1x10000_S10000x1_1_0 : S1x10000.Transposes [1, 0] S10000x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S10000x11_S11x32_S10000x32_1_0_0_1_n_n_wf : DotDims.WF S10000x11 S11x32 S10000x32 [1] [0] [0] [1] [] []
  dot_S10000x32_S32x32_S10000x32_1_0_0_1_n_n_wf : DotDims.WF S10000x32 S32x32 S10000x32 [1] [0] [0] [1] [] []
  gather_S8x10000x32_S320000x1_S8x320000x32_02_1_n_n_1_1_8132_wf : GatherDims.WF S8x10000x32 S320000x1 S8x320000x32 [0, 2] [1] [] [1] [] 1 ![8, 1, 32]
  dot_S10000x64_S64x32_S10000x32_1_0_0_1_n_n_wf : DotDims.WF S10000x64 S64x32 S10000x32 [1] [0] [0] [1] [] []
  scatter_S8x10000x32_S320000x1_S8x320000x32_02_1_1_1_wf : ScatterDims.WF S8x10000x32 S320000x1 S8x320000x32 [0, 2] [1] [1] 1
  scatter_S10000_S320000x1_S320000_n_0_0_1_wf : ScatterDims.WF S10000 S320000x1 S320000 [] [0] [0] 1
  dot_S10000x32_S32x1_S10000x1_1_0_0_1_n_n_wf : DotDims.WF S10000x32 S32x1 S10000x1 [1] [0] [0] [1] [] []
  dot_S8x10000_S10000x1_S8x1_1_0_0_1_n_n_wf : DotDims.WF S8x10000 S10000x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x11.size a ≤ S8x10000x11.size a
  hwx0_0 : ∀ i : grid0.Coords, EltTy.bits .f32 = 32 ∨ (Rect.block (s := S8x10000x11) S1x10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10000x32.size a ≤ S8x10000x32.size a
  hwx0_5 : ∀ i : grid0.Coords, EltTy.bits .bf16 = 32 ∨ (Rect.block (s := S8x10000x32) S1x10000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S8x320000x64.size a
  hwx1_0 : ∀ i : grid1.Coords, EltTy.bits .bf16 = 32 ∨ (Rect.block (s := S8x320000x64) S1x10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x10000x32.size a ≤ S8x320000x32.size a
  hwx1_5 : ∀ i : grid1.Coords, EltTy.bits .bf16 = 32 ∨ (Rect.block (s := S8x320000x32) S1x10000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x32.size a ≤ S8x10000x32.size a
  hwx2_0 : ∀ i : grid2.Coords, EltTy.bits .f32 = 32 ∨ (Rect.block (s := S8x10000x32) S1x10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x10000x1.size a ≤ S8x10000x1.size a
  hwx2_5 : ∀ i : grid2.Coords, EltTy.bits .f32 = 32 ∨ (Rect.block (s := S8x10000x1) S1x10000x1.size (cc2_transform_5 i) (hinb2_5 i)).WholeWords (EltTy.packing .f32)

variable [Facts₀]

def dot_S10000x11_S11x32_S10000x32_1_0_0_1_n_n : DotDims S10000x11 S11x32 S10000x32 where
  lhsContracting := [1]
  rhsContracting := [0]
  lhsNonContracting := [0]
  rhsNonContracting := [1]
  lhsBatch := []
  rhsBatch := []
  wf := dot_S10000x11_S11x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S8x10000x32_S320000x1_S8x320000x32_02_1_n_n_1_1_8132 : GatherDims S8x10000x32 S320000x1 S8x320000x32 where
  offsetDims := [0, 2]
  collapsedSliceDims := [1]
  operandBatchingDims := []
  startIndicesBatchingDims := []
  startIndexMap := [1]
  indexVectorDim := 1
  sliceSizes := ![8, 1, 32]
  wf := gather_S8x10000x32_S320000x1_S8x320000x32_02_1_n_n_1_1_8132_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S8x10000x32_S320000x1_S8x320000x32_02_1_1_1 : ScatterDims S8x10000x32 S320000x1 S8x320000x32 where
  updateWindowDims := [0, 2]
  insertedWindowDims := [1]
  scatterDimsToOperandDims := [1]
  indexVectorDim := 1
  wf := scatter_S8x10000x32_S320000x1_S8x320000x32_02_1_1_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S8x10000_S10000x1_S8x1_1_0_0_1_n_n : DotDims S8x10000 S10000x1 S8x1 where
  lhsContracting := [1]
  rhsContracting := [0]
  lhsNonContracting := [0]
  rhsNonContracting := [1]
  lhsBatch := []
  rhsBatch := []
  wf := dot_S8x10000_S10000x1_S8x1_1_0_0_1_n_n_wf

abbrev win0_0 : Pipeline.Window sig grid0 :=
  Pipeline.Window.ofSpec (Memref.whole main_arg0) S1x10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S1x10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x10000x11 : Shape := ⟨3, ![8, 10000, 11]⟩
abbrev S2x320000 : Shape := ⟨2, ![2, 320000]⟩
abbrev S32x11 : Shape := ⟨2, ![32, 11]⟩
abbrev S32 : Shape := ⟨1, ![32]⟩
abbrev S32x32 : Shape := ⟨2, ![32, 32]⟩
abbrev S32x64 : Shape := ⟨2, ![32, 64]⟩
abbrev S1x32 : Shape := ⟨2, ![1, 32]⟩
abbrev S1 : Shape := ⟨1, ![1]⟩
abbrev S1x1 : Shape := ⟨2, ![1, 1]⟩
abbrev S1x10000 : Shape := ⟨2, ![1, 10000]⟩
abbrev S8x10000x32 : Shape := ⟨3, ![8, 10000, 32]⟩
abbrev S1x1x32 : Shape := ⟨3, ![1, 1, 32]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S8x320000x32 : Shape := ⟨3, ![8, 320000, 32]⟩
abbrev S8x320000x64 : Shape := ⟨3, ![8, 320000, 64]⟩
abbrev S10000 : Shape := ⟨1, ![10000]⟩
abbrev S1x10000x1 : Shape := ⟨3, ![1, 10000, 1]⟩
abbrev S8x10000x1 : Shape := ⟨3, ![8, 10000, 1]⟩
abbrev S1x1x1 : Shape := ⟨3, ![1, 1, 1]⟩
abbrev S8x10000 : Shape := ⟨2, ![8, 10000]⟩
abbrev S10000x1 : Shape := ⟨2, ![10000, 1]⟩
abbrev S8x1 : Shape := ⟨2, ![8, 1]⟩

abbrev nBuf : Space → Nat
  | .hbm => 131
  | .vmem => 0
  | .smem => 0
  | _ => 0

abbrev hbmTy0_0 (i : Nat) : BufTy := match i % 128 with
  | 0 => ⟨S8x10000x11, .f32⟩
  | 1 => ⟨S2x320000, .i32⟩
  | 2 => ⟨S32x11, .f32⟩
  | 3 => ⟨S32, .f32⟩
  | 4 => ⟨S32x32, .f32⟩
  | 5 => ⟨S32, .f32⟩
  | 6 => ⟨S32x64, .f32⟩
  | 7 => ⟨S32, .f32⟩
  | 8 => ⟨S32x32, .f32⟩
  | 9 => ⟨S32, .f32⟩
  | 10 => ⟨S1x32, .f32⟩
  | 11 => ⟨S1, .f32⟩
  | 12 => ⟨S1x1, .f32⟩
  | 13 => ⟨S1, .f32⟩
  | 14 => ⟨S1x10000, .f32⟩
  | 15 => ⟨S1, .f32⟩
  | 16 => ⟨S8x10000x32, .f32⟩
  | 17 => ⟨S1x1x32, .f32⟩
  | 18 => ⟨S8x10000x32, .f32⟩
  | 19 => ⟨S8x10000x32, .f32⟩
  | 20 => ⟨S_, .f32⟩
  | 21 => ⟨S8x10000x32, .f32⟩
  | 22 => ⟨S8x10000x32, .f32⟩
  | 23 => ⟨S8x10000x32, .f32⟩
  | 24 => ⟨S1x1x32, .f32⟩
  | 25 => ⟨S8x10000x32, .f32⟩
  | 26 => ⟨S8x10000x32, .f32⟩
  | 27 => ⟨S_, .f32⟩
  | 28 => ⟨S8x10000x32, .f32⟩
  | 29 => ⟨S8x10000x32, .f32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S8x320000x32, .f32⟩
  | 41 => ⟨S1x320000, .i32⟩
  | 42 => ⟨S320000, .i32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S8x320000x32, .f32⟩
  | 52 => ⟨S8x320000x64, .f32⟩
  | 53 => ⟨S8x320000x32, .f32⟩
  | 54 => ⟨S1x1x32, .f32⟩
  | 55 => ⟨S8x320000x32, .f32⟩
  | 56 => ⟨S8x320000x32, .f32⟩
  | 57 => ⟨S_, .f32⟩
  | 58 => ⟨S8x320000x32, .f32⟩
  | 59 => ⟨S8x320000x32, .f32⟩
  | 60 => ⟨S8x320000x32, .f32⟩
  | 61 => ⟨S1x1x32, .f32⟩
  | 62 => ⟨S8x320000x32, .f32⟩
  | 63 => ⟨S8x320000x32, .f32⟩
  | 64 => ⟨S_, .f32⟩
  | 65 => ⟨S8x320000x32, .f32⟩
  | 66 => ⟨S8x320000x32, .f32⟩
  | 67 => ⟨S_, .f32⟩
  | 68 => ⟨S8x10000x32, .f32⟩
  | 69 => ⟨S1x320000, .i32⟩
  | 70 => ⟨S320000, .i32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S8x10000x32, .f32⟩
  | 80 => ⟨S_, .f32⟩
  | 81 => ⟨S10000, .f32⟩
  | 82 => ⟨S1x320000, .i32⟩
  | 83 => ⟨S320000, .i32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S_, .f32⟩
  | 93 => ⟨S320000, .f32⟩
  | 94 => ⟨S10000, .f32⟩
  | 95 => ⟨S_, .f32⟩
  | 96 => ⟨S10000, .f32⟩
  | 97 => ⟨S10000, .f32⟩
  | 98 => ⟨S1x10000x1, .f32⟩
  | 99 => ⟨S8x10000x32, .f32⟩
  | 100 => ⟨S8x10000x32, .f32⟩
  | 101 => ⟨S8x10000x1, .f32⟩
  | 102 => ⟨S1x1x1, .f32⟩
  | 103 => ⟨S8x10000x1, .f32⟩
  | 104 => ⟨S8x10000x1, .f32⟩
  | 105 => ⟨S_, .f32⟩
  | 106 => ⟨S8x10000x1, .f32⟩
  | 107 => ⟨S8x10000x1, .f32⟩
  | 108 => ⟨S_, .f32⟩
  | 109 => ⟨S8x10000x1, .f32⟩
  | 110 => ⟨S8x10000x1, .f32⟩
  | 111 => ⟨S1x1x1, .f32⟩
  | 112 => ⟨S8x10000x1, .f32⟩
  | 113 => ⟨S8x10000x1, .f32⟩
  | 114 => ⟨S_, .f32⟩
  | 115 => ⟨S8x10000x1, .f32⟩
  | 116 => ⟨S8x10000x1, .f32⟩
  | 117 => ⟨S8x10000, .f32⟩
  | 118 => ⟨S10000x1, .f32⟩
  | 119 => ⟨S8x1, .f32⟩
  | 120 => ⟨S1x1, .f32⟩
  | 121 => ⟨S8x1, .f32⟩
  | 122 => ⟨S8x1, .f32⟩
  | 123 => ⟨S8x1, .f32⟩
  | 124 => ⟨S8x1, .f32⟩
  | 125 => ⟨S_, .f32⟩
  | 126 => ⟨S8x1, .f32⟩
  | 127 => ⟨S8x1, .f32⟩
  | _ => ⟨S8x10000x11, .f32⟩

abbrev hbmTy0_1 (i : Nat) : BufTy := match i % 128 with
  | 0 => ⟨S_, .f32⟩
  | 1 => ⟨S8x1, .f32⟩
  | 2 => ⟨S8x1, .f32⟩
  | _ => ⟨S8x10000x11, .f32⟩

abbrev hbmTy (i : Nat) : BufTy := match i / 128 with
  | 0 => hbmTy0_0 i
  | 1 => hbmTy0_1 i
  | _ => ⟨S8x10000x11, .f32⟩

abbrev bufTy : (tb : Table) → Fin (tcTables nBuf tb) → BufTy
  | .hbm, ⟨i, _⟩ => hbmTy i
  | _, _ => ⟨S8x10000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_cst : Ref sig .tc := ⟨.hbm, 64, rfl⟩
abbrev main_call3_v0 : Ref sig .tc := ⟨.hbm, 65, rfl⟩
abbrev main_v38 : Ref sig .tc := ⟨.hbm, 66, rfl⟩
abbrev main_cst : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_3 : Ref sig .tc := ⟨.hbm, 71, rfl⟩
abbrev main_v42 : Ref sig .tc := ⟨.hbm, 72, rfl⟩
abbrev main_v43 : Ref sig .tc := ⟨.hbm, 73, rfl⟩
abbrev main_c_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_6 : Ref sig .tc := ⟨.hbm, 84, rfl⟩
abbrev main_v52 : Ref sig .tc := ⟨.hbm, 85, rfl⟩
abbrev main_v53 : Ref sig .tc := ⟨.hbm, 86, rfl⟩
abbrev main_c_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call4_cst : Ref sig .tc := ⟨.hbm, 105, rfl⟩
abbrev main_call4_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call5_cst : Ref sig .tc := ⟨.hbm, 114, rfl⟩
abbrev main_call5_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_10 : Ref sig .tc := ⟨.hbm, 125, rfl⟩
abbrev main_v85 : Ref sig .tc := ⟨.hbm, 126, rfl⟩
abbrev main_v86 : Ref sig .tc := ⟨.hbm, 127, rfl⟩
abbrev main_cst_11 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S8x10000x32_0_1_2 : S1x1x32.BroadcastsInDim S8x10000x32 (![0, 1, 2] : Fin 3 → Fin S8x10000x32.rank)
  bcast_S_S8x10000x32 : S_.BroadcastsInDim S8x10000x32 (![] : Fin 0 → Fin S8x10000x32.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  concatenates_S8x320000x32_S8x320000x32_S8x320000x64_d2 : Shape.Concatenates [S8x320000x32, S8x320000x32] S8x320000x64 2
  bcast_S1x1x32_S8x320000x32_0_1_2 : S1x1x32.BroadcastsInDim S8x320000x32 (![0, 1, 2] : Fin 3 → Fin S8x320000x32.rank)
  bcast_S_S8x320000x32 : S_.BroadcastsInDim S8x320000x32 (![] : Fin 0 → Fin S8x320000x32.rank)
  bcast_S_S10000 : S_.BroadcastsInDim S10000 (![] : Fin 0 → Fin S10000.rank)
  bcast_S10000_S1x10000x1_1 : S10000.BroadcastsInDim S1x10000x1 (![1] : Fin 1 → Fin S1x10000x1.rank)
  bcast_S1x10000x1_S8x10000x32_0_1_2 : S1x10000x1.BroadcastsInDim S8x10000x32 (![0, 1, 2] : Fin 3 → Fin S8x10000x32.rank)
  bcast_S1_S1x1x1_2 : S1.BroadcastsInDim S1x1x1 (![2] : Fin 1 → Fin S1x1x1.rank)
  bcast_S1x1x1_S8x10000x1_0_1_2 : S1x1x1.BroadcastsInDim S8x10000x1 (![0, 1, 2] : Fin 3 → Fin S8x10000x1.rank)
  bcast_S_S8x10000x1 : S_.BroadcastsInDim S8x10000x1 (![] : Fin 0 → Fin S8x10000x1.rank)
  shapeCasts_S1x1_S_ : S1x1.ShapeCasts S_
  shapeCasts_S8x10000x1_S8x10000 : S8x10000x1.ShapeCasts S8x10000
  transposes_S1x10000_S10000x1_1_0 : S1x10000.Transposes [1, 0] S10000x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S8x10000x11_S32x11_S8x10000x32_2_1_01_0_n_n_wf : DotDims.WF S8x10000x11 S32x11 S8x10000x32 [2] [1] [0, 1] [0] [] []
  dot_S8x10000x32_S32x32_S8x10000x32_2_1_01_0_n_n_wf : DotDims.WF S8x10000x32 S32x32 S8x10000x32 [2] [1] [0, 1] [0] [] []
  gather_S8x10000x32_S320000x1_S8x320000x32_02_1_n_n_1_1_8132_wf : GatherDims.WF S8x10000x32 S320000x1 S8x320000x32 [0, 2] [1] [] [1] [] 1 ![8, 1, 32]
  dot_S8x320000x64_S32x64_S8x320000x32_2_1_01_0_n_n_wf : DotDims.WF S8x320000x64 S32x64 S8x320000x32 [2] [1] [0, 1] [0] [] []
  dot_S8x320000x32_S32x32_S8x320000x32_2_1_01_0_n_n_wf : DotDims.WF S8x320000x32 S32x32 S8x320000x32 [2] [1] [0, 1] [0] [] []
  scatter_S8x10000x32_S320000x1_S8x320000x32_02_1_1_1_wf : ScatterDims.WF S8x10000x32 S320000x1 S8x320000x32 [0, 2] [1] [1] 1
  scatter_S10000_S320000x1_S320000_n_0_0_1_wf : ScatterDims.WF S10000 S320000x1 S320000 [] [0] [0] 1
  dot_S8x10000x32_S1x32_S8x10000x1_2_1_01_0_n_n_wf : DotDims.WF S8x10000x32 S1x32 S8x10000x1 [2] [1] [0, 1] [0] [] []
  dot_S8x10000_S10000x1_S8x1_1_0_0_1_n_n_wf : DotDims.WF S8x10000 S10000x1 S8x1 [1] [0] [0] [1] [] []

variable [Facts₀]

def dot_S8x10000x11_S32x11_S8x10000x32_2_1_01_0_n_n : DotDims S8x10000x11 S32x11 S8x10000x32 where
  lhsContracting := [2]
  rhsContracting := [1]
  lhsNonContracting := [0, 1]
  rhsNonContracting := [0]
  lhsBatch := []
  rhsBatch := []
  wf := dot_S8x10000x11_S32x11_S8x10000x32_2_1_01_0_n_n_wf
def dot_S8x10000x32_S32x32_S8x10000x32_2_1_01_0_n_n : DotDims S8x10000x32 S32x32 S8x10000x32 where
  lhsContracting := [2]
  rhsContracting := [1]
  lhsNonContracting := [0, 1]
  rhsNonContracting := [0]
  lhsBatch := []
  rhsBatch := []
  wf := dot_S8x10000x32_S32x32_S8x10000x32_2_1_01_0_n_n_wf
def gather_S8x10000x32_S320000x1_S8x320000x32_02_1_n_n_1_1_8132 : GatherDims S8x10000x32 S320000x1 S8x320000x32 where
  offsetDims := [0, 2]
  collapsedSliceDims := [1]
  operandBatchingDims := []
  startIndicesBatchingDims := []
  startIndexMap := [1]
  indexVectorDim := 1
  sliceSizes := ![8, 1, 32]
  wf := gather_S8x10000x32_S320000x1_S8x320000x32_02_1_n_n_1_1_8132_wf
def dot_S8x320000x64_S32x64_S8x320000x32_2_1_01_0_n_n : DotDims S8x320000x64 S32x64 S8x320000x32 where
  lhsContracting := [2]
  rhsContracting := [1]
  lhsNonContracting := [0, 1]
  rhsNonContracting := [0]
  lhsBatch := []
  rhsBatch := []
  wf := dot_S8x320000x64_S32x64_S8x320000x32_2_1_01_0_n_n_wf
def dot_S8x320000x32_S32x32_S8x320000x32_2_1_01_0_n_n : DotDims S8x320000x32 S32x32 S8x320000x32 where
  lhsContracting := [2]
  rhsContracting := [1]
  lhsNonContracting := [0, 1]
  rhsNonContracting := [0]
  lhsBatch := []
  rhsBatch := []
  wf := dot_S8x320000x32_S32x32_S8x320000x32_2_1_01_0_n_n_wf
def scatter_S8x10000x32_S320000x1_S8x320000x32_02_1_1_1 : ScatterDims S8x10000x32 S320000x1 S8x320000x32 where
  updateWindowDims := [0, 2]
  insertedWindowDims := [1]
  scatterDimsToOperandDims := [1]
  indexVectorDim := 1
  wf := scatter_S8x10000x32_S320000x1_S8x320000x32_02_1_1_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S8x10000x32_S1x32_S8x10000x1_2_1_01_0_n_n : DotDims S8x10000x32 S1x32 S8x10000x1 where
  lhsContracting := [2]
  rhsContracting := [1]
  lhsNonContracting := [0, 1]
  rhsNonContracting := [0]
  lhsBatch := []
  rhsBatch := []
  wf := dot_S8x10000x32_S1x32_S8x10000x1_2_1_01_0_n_n_wf
def dot_S8x10000_S10000x1_S8x1_1_0_0_1_n_n : DotDims S8x10000 S10000x1 S8x1 where
  lhsContracting := [1]
  rhsContracting := [0]
  lhsNonContracting := [0]
  rhsNonContracting := [1]
  lhsBatch := []
  rhsBatch := []
  wf := dot_S8x10000_S10000x1_S8x1_1_0_0_1_n_n_wf

class Facts : Prop extends Facts₀ where

variable [Facts]
-- ==== Proof.Spec.lean ====
/-
  The arithmetic shared by the three perceptron stages, on the extended reals, free of any array layout.
  A stage's output entry is a function of one input row and of the weights; the rows are handed over as
  functions of a coordinate, so that one definition serves the operands however they are laid out.
-/
import Idealize.ShloMosaic.PureOps.Ideal
import Mathlib.Algebra.BigOperators.Group.Finset.Basic

noncomputable section

namespace Cert.Spec

open Idealize.ShloMosaic

/-- `max(x, 0)`; the zero is kept as the f32 word both programs print, never evaluated. -/
def relu (x : EReal) : EReal := max x (Ideal.ofBits .f32 0x00000000#32)

/-- One output feature of a two-layer perceptron with a rectifier after each layer: the input row `x` has
    `K1` features, the hidden layer `K2`; `w1 f k` is the first layer's weight from feature `f` to hidden
    unit `k`, `w2 k` the second layer's weight from hidden unit `k` to this output feature. In every product
    the activation is the left factor and the weight the right one. -/
def mlp2 {K1 K2 : Nat} (x : Fin K1 → EReal) (w1 : Fin K1 → Fin K2 → EReal) (b1 : Fin K2 → EReal)
    (w2 : Fin K2 → EReal) (b2 : EReal) : EReal :=
  relu ((∑ k : Fin K2, relu ((∑ f : Fin K1, x f * w1 f k) + b1 k) * w2 k) + b2)

/-- The readout of one node: a linear layer into ONE unit, rectified, then an affine map of that one number,
    rectified again. -/
def readout {K : Nat} (x w : Fin K → EReal) (b1 w2 b2 : EReal) : EReal :=
  relu (relu ((∑ k : Fin K, x k * w k) + b1) * w2 + b2)

end Cert.Spec

end
-- ==== Proof.Chain.lean ====
/-
  What the two programs share besides the perceptrons, and the perceptron stages as whole arrays.
  Between the stages both programs apply the SAME host operations: the rows of the node embeddings gathered at the
  two endpoints of every edge and joined along the feature axis; the edge messages summed into their target
  node and divided by the node's in-degree (at least one); the weighted sum over the nodes pushed through the
  logistic function. Each is stated once, as one function of the array it consumes, and is never opened: the
  certificate only needs that equal arrays go in.
  The perceptron stages are stated twice, once over the operands as the launches receive them (weights
  transposed to (in, out), biases as one row) and once over the operands as the programs' arguments give them;
  the two agree (Layout).
-/
import proofs.«117053_j78151224918081_1_alg».proof.KernelIdeal
import proofs.«117053_j78151224918081_1_alg».proof.Proof.Gen.KernelIdeal
import proofs.«117053_j78151224918081_1_alg».proof.Proof.Spec
import Idealize.ShloMosaic.Lib.ValueIdx

noncomputable section

namespace Cert.Chain

open Cert.KernelIdeal Cert.KernelIdeal.Gen Idealize.ShloMosaic Idealize.ShloMosaic.ValueIdx

/-! ## The shared host stretches -/

/-- Row 0 of the edge list (the source nodes) as a column of start indices, a negative entry counted from the
    end of the node axis. -/
def endpoint0 (e : IVec S2x320000 32) : IVec S320000x1 32 :=
  broadcastInDim S320000x1 ![0] bcast_S320000_S320000x1_0 (select (cmpi .slt (shapeCast _ (extractStridedSlice S1x320000 ![0, 0] e slices_S2x320000_S1x320000_0_0) shapeCasts_S1x320000_S320000) (broadcastInDim S320000 ![] bcast_S_S320000 (constantI S_ 32 0#32))) (addi (shapeCast _ (extractStridedSlice S1x320000 ![0, 0] e slices_S2x320000_S1x320000_0_0) shapeCasts_S1x320000_S320000) (broadcastInDim S320000 ![] bcast_S_S320000 (constantI S_ 32 10000#32))) (shapeCast _ (extractStridedSlice S1x320000 ![0, 0] e slices_S2x320000_S1x320000_0_0) shapeCasts_S1x320000_S320000))

/-- Row 1 of the edge list (the target nodes), likewise. -/
def endpoint1 (e : IVec S2x320000 32) : IVec S320000x1 32 :=
  broadcastInDim S320000x1 ![0] bcast_S320000_S320000x1_0 (select (cmpi .slt (shapeCast _ (extractStridedSlice S1x320000 ![1, 0] e slices_S2x320000_S1x320000_1_0) shapeCasts_S1x320000_S320000) (broadcastInDim S320000 ![] bcast_S_S320000 (constantI S_ 32 0#32))) (addi (shapeCast _ (extractStridedSlice S1x320000 ![1, 0] e slices_S2x320000_S1x320000_1_0) shapeCasts_S1x320000_S320000) (broadcastInDim S320000 ![] bcast_S_S320000 (constantI S_ 32 10000#32))) (shapeCast _ (extractStridedSlice S1x320000 ![1, 0] e slices_S2x320000_S1x320000_1_0) shapeCasts_S1x320000_S320000))

/-- The edge features: the embedding rows of an edge's two endpoints side by side. -/
def pairOf (h : S8x10000x32.Idx → EReal) (e : IVec S2x320000 32) : S8x320000x64.Idx → EReal :=
  concatenate S8x320000x64 2 [⟨S8x320000x32, (Host.gather gather_S8x10000x32_S320000x1_S8x320000x32_02_1_n_n_1_1_8132 h (endpoint0 e))⟩, ⟨S8x320000x32, (Host.gather gather_S8x10000x32_S320000x1_S8x320000x32_02_1_n_n_1_1_8132 h (endpoint1 e))⟩] concatenates_S8x320000x32_S8x320000x32_S8x320000x64_d2

/-- The mean message per node: the messages summed into their edge's target, over the number of edges that end
    there, taken as at least one. -/
def aggOf (msg : S8x320000x32.Idx → EReal) (e : IVec S2x320000 32) : S8x10000x32.Idx → EReal :=
  Host.divf (F := Ideal) (φ := .f32) (Host.scatterAdd scatter_S8x10000x32_S320000x1_S8x320000x32_02_1_1_1 (broadcastInDim S8x10000x32 ![] bcast_S_S8x10000x32 (constant (F := Ideal) S_ .f32 0x00000000#32)) (endpoint1 e) msg) (broadcastInDim S8x10000x32 ![0, 1, 2] bcast_S1x10000x1_S8x10000x32_0_1_2 (broadcastInDim S1x10000x1 ![1] bcast_S10000_S1x10000x1_1 (maximumf (Host.scatterAdd scatter_S10000_S320000x1_S320000_n_0_0_1 (broadcastInDim S10000 ![] bcast_S_S10000 (constant (F := Ideal) S_ .f32 0x00000000#32)) (endpoint1 e) (broadcastInDim S320000 ![] bcast_S_S320000 (constant (F := Ideal) S_ .f32 0x3F800000#32))) (broadcastInDim S10000 ![] bcast_S_S10000 (constant (F := Ideal) S_ .f32 0x3F800000#32)))))

/-- The graph readout: the nodes' values weighted and summed per batch entry, plus a bias, through `1 / (1 + exp (-·))`. -/
def tailOf (v : S8x10000x1.Idx → EReal) (wg : S1x10000.Idx → EReal) (bg : S1.Idx → EReal) : S8x1.Idx → EReal :=
  Host.divf (F := Ideal) (φ := .f32) (broadcastInDim S8x1 ![] bcast_S_S8x1 (constant (F := Ideal) S_ .f32 0x3F800000#32)) (addf (broadcastInDim S8x1 ![] bcast_S_S8x1 (constant (F := Ideal) S_ .f32 0x3F800000#32)) (Host.exp (Host.negf (addf (Host.dotGeneral (φ₁ := .f32) (φ₂ := .f32) dot_S8x10000_S10000x1_S8x1_1_0_0_1_n_n none (shapeCast _ v shapeCasts_S8x10000x1_S8x10000) (transpose S10000x1 [1, 0] wg transposes_S1x10000_S10000x1_1_0)) (broadcastInDim S8x1 ![0, 1] bcast_S1x1_S8x1_0_1 (broadcastInDim S1x1 ![1] bcast_S1_S1x1_1 bg))))))

/-! ## The perceptron stages over the programs' arguments -/

/-- Node embeddings: entry (b, n, h) from row (b, n) of the vertices; `W1 : [32, 11]`, `W2 : [32, 32]` are (out, in). -/
def nodeC (X : S8x10000x11.Idx → EReal) (W1 : S32x11.Idx → EReal) (b1 : S32.Idx → EReal) (W2 : S32x32.Idx → EReal)
    (b2 : S32.Idx → EReal) (b : Fin 8) (n : Fin 10000) (h : Fin 32) : EReal :=
  Spec.mlp2 (fun f : Fin 11 => X (ix3 b n f)) (fun f k => W1 (ix2 k f)) (fun k : Fin 32 => b1 (ix1 k)) (fun k => W2 (ix2 h k)) (b2 (ix1 h))
def nodeArr (X : S8x10000x11.Idx → EReal) (W1 : S32x11.Idx → EReal) (b1 : S32.Idx → EReal) (W2 : S32x32.Idx → EReal)
    (b2 : S32.Idx → EReal) : S8x10000x32.Idx → EReal := fun i => nodeC X W1 b1 W2 b2 (i 0) (i 1) (i 2)

/-- Edge messages: entry (b, e, h) from row (b, e) of the edge features; `We1 : [32, 64]`, `We2 : [32, 32]` are (out, in). -/
def edgeC (P : S8x320000x64.Idx → EReal) (We1 : S32x64.Idx → EReal) (be1 : S32.Idx → EReal) (We2 : S32x32.Idx → EReal)
    (be2 : S32.Idx → EReal) (b : Fin 8) (e : Fin 320000) (h : Fin 32) : EReal :=
  Spec.mlp2 (fun f : Fin 64 => P (ix3 b e f)) (fun f k => We1 (ix2 k f)) (fun k : Fin 32 => be1 (ix1 k)) (fun k => We2 (ix2 h k)) (be2 (ix1 h))
def edgeArr (P : S8x320000x64.Idx → EReal) (We1 : S32x64.Idx → EReal) (be1 : S32.Idx → EReal) (We2 : S32x32.Idx → EReal)
    (be2 : S32.Idx → EReal) : S8x320000x32.Idx → EReal := fun i => edgeC P We1 be1 We2 be2 (i 0) (i 1) (i 2)

/-- Node values: entry (b, n, 0) from row (b, n) of the mean messages; `Wv1 : [1, 32]`, `Wv2 : [1, 1]`. -/
def vertC (A : S8x10000x32.Idx → EReal) (Wv1 : S1x32.Idx → EReal) (bv1 : S1.Idx → EReal) (Wv2 : S1x1.Idx → EReal)
    (bv2 : S1.Idx → EReal) (b : Fin 8) (n : Fin 10000) : EReal :=
  Spec.readout (fun k : Fin 32 => A (ix3 b n k)) (fun k => Wv1 (ix2 0 k)) (bv1 (ix1 0)) (Wv2 (ix2 0 0)) (bv2 (ix1 0))
def vertArr (A : S8x10000x32.Idx → EReal) (Wv1 : S1x32.Idx → EReal) (bv1 : S1.Idx → EReal) (Wv2 : S1x1.Idx → EReal)
    (bv2 : S1.Idx → EReal) : S8x10000x1.Idx → EReal := fun i => vertC A Wv1 bv1 Wv2 bv2 (i 0) (i 1)

/-! ## The same stages over the operands as the launches receive them -/

/-- `W1t : [11, 32]`, `W2t : [32, 32]` are (in, out); the biases are one row `[1, 32]`. -/
def nodeKC (X : S8x10000x11.Idx → EReal) (W1t : S11x32.Idx → EReal) (b1r : S1x32.Idx → EReal) (W2t : S32x32.Idx → EReal)
    (b2r : S1x32.Idx → EReal) (b : Fin 8) (n : Fin 10000) (h : Fin 32) : EReal :=
  Spec.mlp2 (fun f : Fin 11 => X (ix3 b n f)) (fun f k => W1t (ix2 f k)) (fun k : Fin 32 => b1r (ix2 0 k)) (fun k => W2t (ix2 k h)) (b2r (ix2 0 h))
def nodeK (X : S8x10000x11.Idx → EReal) (W1t : S11x32.Idx → EReal) (b1r : S1x32.Idx → EReal) (W2t : S32x32.Idx → EReal)
    (b2r : S1x32.Idx → EReal) : S8x10000x32.Idx → EReal := fun i => nodeKC X W1t b1r W2t b2r (i 0) (i 1) (i 2)

def edgeKC (P : S8x320000x64.Idx → EReal) (We1t : S64x32.Idx → EReal) (be1r : S1x32.Idx → EReal) (We2t : S32x32.Idx → EReal)
    (be2r : S1x32.Idx → EReal) (b : Fin 8) (e : Fin 320000) (h : Fin 32) : EReal :=
  Spec.mlp2 (fun f : Fin 64 => P (ix3 b e f)) (fun f k => We1t (ix2 f k)) (fun k : Fin 32 => be1r (ix2 0 k)) (fun k => We2t (ix2 k h)) (be2r (ix2 0 h))
def edgeK (P : S8x320000x64.Idx → EReal) (We1t : S64x32.Idx → EReal) (be1r : S1x32.Idx → EReal) (We2t : S32x32.Idx → EReal)
    (be2r : S1x32.Idx → EReal) : S8x320000x32.Idx → EReal := fun i => edgeKC P We1t be1r We2t be2r (i 0) (i 1) (i 2)

def vertKC (A : S8x10000x32.Idx → EReal) (Wv1t : S32x1.Idx → EReal) (bv1r : S1x1.Idx → EReal) (Wv2 : S1x1.Idx → EReal)
    (bv2r : S1x1.Idx → EReal) (b : Fin 8) (n : Fin 10000) : EReal :=
  Spec.readout (fun k : Fin 32 => A (ix3 b n k)) (fun k => Wv1t (ix2 k 0)) (bv1r (ix2 0 0)) (Wv2 (ix2 0 0)) (bv2r (ix2 0 0))
def vertK (A : S8x10000x32.Idx → EReal) (Wv1t : S32x1.Idx → EReal) (bv1r : S1x1.Idx → EReal) (Wv2 : S1x1.Idx → EReal)
    (bv2r : S1x1.Idx → EReal) : S8x10000x1.Idx → EReal := fun i => vertKC A Wv1t bv1r Wv2 bv2r (i 0) (i 1)

/-! ## The whole network -/

/-- The network's output as ONE function of the sixteen arguments, in the programs' order: vertices, edges, the node
    perceptron's `W1 b1 W2 b2`, the edge perceptron's `We1 be1 We2 be2`, the readout's `Wv1 bv1 Wv2 bv2`, the graph
    readout's `Wg bg`. -/
def G (x0 : S8x10000x11.Idx → EReal) (x1 : IVec S2x320000 32) (x2 : S32x11.Idx → EReal) (x3 : S32.Idx → EReal)
    (x4 : S32x32.Idx → EReal) (x5 : S32.Idx → EReal) (x6 : S32x64.Idx → EReal) (x7 : S32.Idx → EReal)
    (x8 : S32x32.Idx → EReal) (x9 : S32.Idx → EReal) (x10 : S1x32.Idx → EReal) (x11 : S1.Idx → EReal)
    (x12 : S1x1.Idx → EReal) (x13 : S1.Idx → EReal) (x14 : S1x10000.Idx → EReal) (x15 : S1.Idx → EReal) : S8x1.Idx → EReal :=
  tailOf (vertArr (aggOf (edgeArr (pairOf (nodeArr x0 x2 x3 x4 x5) x1) x6 x7 x8 x9) x1) x10 x11 x12 x13) x14 x15

end Cert.Chain

end
-- ==== Proof.KHost.lean ====
/-
  The host stretches of the kernel program, read: what each launch finds in its windows' arrays, and what the last
  stretch leaves in the result buffer, each as the stretch's operations applied to what the launch before it left.
-/
import proofs.«117053_j78151224918081_1_alg».proof.Proof.Gen.KernelIdeal.Frame
import proofs.«117053_j78151224918081_1_alg».proof.Proof.Chain
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## Buffers that a stretch or a launch leaves alone

A stretch writes only its operations' result buffers, a launch only its windows' arrays; every other buffer holds after
it what it held before. -/

/-- A buffer the first stretch does not write holds what the launch memory holds. -/
theorem W1_keep (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h).trans rfl

/-- A buffer that is no array of the first launch and that the second stretch does not write holds at the second
    launch what it held at the first. -/
theorem W3_keep (c : Dev nD) (b : Ref sig .tc)
    (h : ∀ op ∈ (hostOps1 : List (HloOp τ sig (Elt Ideal))), Proc.devRef .tc b ∉ op.writes)
    (hb : ∀ w, Pipeline.arrRef spec0 w ≠ b) :
    W3 m ρ c (Proc.devRef .tc b) = W1 m ρ c (Proc.devRef .tc b) :=
  (StableHlo.after_of_forall_not_mem (b := Proc.devRef .tc b) _ _ h).trans (W2_of_ne m ρ c b hb)

/-- A buffer that is no array of the second launch and that the third stretch does not write holds at the third
    launch what it held at the second. -/
theorem W5_keep (c : Dev nD) (b : Ref sig .tc)
    (h : ∀ op ∈ (hostOps2 : List (HloOp τ sig (Elt Ideal))), Proc.devRef .tc b ∉ op.writes)
    (hb : ∀ w, Pipeline.arrRef spec1 w ≠ b) :
    W5 m ρ c (Proc.devRef .tc b) = W3 m ρ c (Proc.devRef .tc b) :=
  (StableHlo.after_of_forall_not_mem (b := Proc.devRef .tc b) _ _ h).trans (W4_of_ne m ρ c b hb)

/-! ## What the first stretch writes: the weights transposed, the biases as rows -/

theorem W1_v0 (c : Dev nD) : W1 m ρ c (Proc.devRef .tc main_v0) = transpose S11x32 [1, 0] (m ((c : Thread nD τ).loc main_arg2)) transposes_S32x11_S11x32_1_0 := by
  show StableHlo.after hostOps0 _ (Proc.devRef .tc main_v0) = _
  after_results
theorem W1_v1 (c : Dev nD) : W1 m ρ c (Proc.devRef .tc main_v1) = transpose S32x32 [1, 0] (m ((c : Thread nD τ).loc main_arg4)) transposes_S32x32_S32x32_1_0 := by
  show StableHlo.after hostOps0 _ (Proc.devRef .tc main_v1) = _
  after_results
theorem W1_v2 (c : Dev nD) : W1 m ρ c (Proc.devRef .tc main_v2) = transpose S64x32 [1, 0] (m ((c : Thread nD τ).loc main_arg6)) transposes_S32x64_S64x32_1_0 := by
  show StableHlo.after hostOps0 _ (Proc.devRef .tc main_v2) = _
  after_results
theorem W1_v3 (c : Dev nD) : W1 m ρ c (Proc.devRef .tc main_v3) = transpose S32x32 [1, 0] (m ((c : Thread nD τ).loc main_arg8)) transposes_S32x32_S32x32_1_0 := by
  show StableHlo.after hostOps0 _ (Proc.devRef .tc main_v3) = _
  after_results
theorem W1_v4 (c : Dev nD) : W1 m ρ c (Proc.devRef .tc main_v4) = transpose S32x1 [1, 0] (m ((c : Thread nD τ).loc main_arg10)) transposes_S1x32_S32x1_1_0 := by
  show StableHlo.after hostOps0 _ (Proc.devRef .tc main_v4) = _
  after_results
theorem W1_v5 (c : Dev nD) : W1 m ρ c (Proc.devRef .tc main_v5) = shapeCast _ (m ((c : Thread nD τ).loc main_arg3)) shapeCasts_S32_S1x32 := by
  show StableHlo.after hostOps0 _ (Proc.devRef .tc main_v5) = _
  after_results
  rfl
theorem W1_v6 (c : Dev nD) : W1 m ρ c (Proc.devRef .tc main_v6) = shapeCast _ (m ((c : Thread nD τ).loc main_arg5)) shapeCasts_S32_S1x32 := by
  show StableHlo.after hostOps0 _ (Proc.devRef .tc main_v6) = _
  after_results
  rfl
theorem W1_v7 (c : Dev nD) : W1 m ρ c (Proc.devRef .tc main_v7) = shapeCast _ (m ((c : Thread nD τ).loc main_arg7)) shapeCasts_S32_S1x32 := by
  show StableHlo.after hostOps0 _ (Proc.devRef .tc main_v7) = _
  after_results
  rfl
theorem W1_v8 (c : Dev nD) : W1 m ρ c (Proc.devRef .tc main_v8) = shapeCast _ (m ((c : Thread nD τ).loc main_arg9)) shapeCasts_S32_S1x32 := by
  show StableHlo.after hostOps0 _ (Proc.devRef .tc main_v8) = _
  after_results
  rfl
theorem W1_v9 (c : Dev nD) : W1 m ρ c (Proc.devRef .tc main_v9) = shapeCast _ (m ((c : Thread nD τ).loc main_arg11)) shapeCasts_S1_S1x1 := by
  show StableHlo.after hostOps0 _ (Proc.devRef .tc main_v9) = _
  after_results
  rfl
theorem W1_v10 (c : Dev nD) : W1 m ρ c (Proc.devRef .tc main_v10) = shapeCast _ (m ((c : Thread nD τ).loc main_arg13)) shapeCasts_S1_S1x1 := by
  show StableHlo.after hostOps0 _ (Proc.devRef .tc main_v10) = _
  after_results
  rfl

/-! ## The arguments read later: the edge list at the second and third launches, the readout's second weight at the
    third, the graph readout's weights after it -/

theorem W1_arg1 (c : Dev nD) : W1 m ρ c (Proc.devRef .tc main_arg1) = m ((c : Thread nD τ).loc main_arg1) :=
  W1_keep m ρ c main_arg1 (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_keep m ρ c main_arg1 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_arg1 m ρ c)
theorem W4_arg1 (c : Dev nD) : W4 m ρ c (Proc.devRef .tc main_arg1) = m ((c : Thread nD τ).loc main_arg1) :=
  (W4_of_ne m ρ c main_arg1 (by decide)).trans (W3_arg1 m ρ c)

theorem W1_arg12 (c : Dev nD) : W1 m ρ c (Proc.devRef .tc main_arg12) = m ((c : Thread nD τ).loc main_arg12) :=
  W1_keep m ρ c main_arg12 (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg14 (c : Dev nD) : W1 m ρ c (Proc.devRef .tc main_arg14) = m ((c : Thread nD τ).loc main_arg14) :=
  W1_keep m ρ c main_arg14 (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg15 (c : Dev nD) : W1 m ρ c (Proc.devRef .tc main_arg15) = m ((c : Thread nD τ).loc main_arg15) :=
  W1_keep m ρ c main_arg15 (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W6_arg14 (c : Dev nD) : W6 m ρ c (Proc.devRef .tc main_arg14) = m ((c : Thread nD τ).loc main_arg14) :=
  (W6_of_ne m ρ c main_arg14 (by decide)).trans
    ((W5_keep m ρ c main_arg14 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
      ((W3_keep m ρ c main_arg14 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_arg14 m ρ c)))
theorem W6_arg15 (c : Dev nD) : W6 m ρ c (Proc.devRef .tc main_arg15) = m ((c : Thread nD τ).loc main_arg15) :=
  (W6_of_ne m ρ c main_arg15 (by decide)).trans
    ((W5_keep m ρ c main_arg15 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
      ((W3_keep m ρ c main_arg15 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_arg15 m ρ c)))

/-! ## What the first launch finds: the vertices as launched, the node perceptron's weights transposed, its biases as rows -/

theorem V1_arg0 (c : Dev nD) : V1 m ρ c main_arg0 = (m ((c : Thread nD τ).loc main_arg0)) :=
  W1_keep m ρ c main_arg0 (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_v0 (c : Dev nD) : V1 m ρ c main_v0 = transpose S11x32 [1, 0] (m ((c : Thread nD τ).loc main_arg2)) transposes_S32x11_S11x32_1_0 :=
  W1_v0 m ρ c
theorem V1_v5 (c : Dev nD) : V1 m ρ c main_v5 = shapeCast _ (m ((c : Thread nD τ).loc main_arg3)) shapeCasts_S32_S1x32 :=
  W1_v5 m ρ c
theorem V1_v1 (c : Dev nD) : V1 m ρ c main_v1 = transpose S32x32 [1, 0] (m ((c : Thread nD τ).loc main_arg4)) transposes_S32x32_S32x32_1_0 :=
  W1_v1 m ρ c
theorem V1_v6 (c : Dev nD) : V1 m ρ c main_v6 = shapeCast _ (m ((c : Thread nD τ).loc main_arg5)) shapeCasts_S32_S1x32 :=
  W1_v6 m ρ c

/-! ## What the second launch finds: the edge features made of the first launch's embeddings, the edge perceptron's weights -/

set_option maxHeartbeats 400000 in
theorem V3_v30 (c : Dev nD) : V3 m ρ c main_v30 = Cert.Chain.pairOf (V2 m ρ c main_v11) (m ((c : Thread nD τ).loc main_arg1)) := by
  show StableHlo.after hostOps1 _ (Proc.devRef .tc main_v30) = _
  after_results
  rw [W2_arg1]
  unfold Cert.Chain.pairOf Cert.Chain.endpoint0 Cert.Chain.endpoint1
  rfl
theorem V3_v2 (c : Dev nD) : V3 m ρ c main_v2 = transpose S64x32 [1, 0] (m ((c : Thread nD τ).loc main_arg6)) transposes_S32x64_S64x32_1_0 :=
  (W3_keep m ρ c main_v2 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v2 m ρ c)
theorem V3_v7 (c : Dev nD) : V3 m ρ c main_v7 = shapeCast _ (m ((c : Thread nD τ).loc main_arg7)) shapeCasts_S32_S1x32 :=
  (W3_keep m ρ c main_v7 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v7 m ρ c)
theorem V3_v3 (c : Dev nD) : V3 m ρ c main_v3 = transpose S32x32 [1, 0] (m ((c : Thread nD τ).loc main_arg8)) transposes_S32x32_S32x32_1_0 :=
  (W3_keep m ρ c main_v3 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v3 m ρ c)
theorem V3_v8 (c : Dev nD) : V3 m ρ c main_v8 = shapeCast _ (m ((c : Thread nD τ).loc main_arg9)) shapeCasts_S32_S1x32 :=
  (W3_keep m ρ c main_v8 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v8 m ρ c)

/-! ## What the third launch finds: the mean of the second launch's messages per node, the readout's weights -/

/-- On the extended reals the widening of a bf16 array to f32 changes no entry. -/
theorem extf_eq (x : FVec Ideal S8x320000x32 .bf16) :
    (extf (F := Ideal) .f32 x bitsLt_bf16_f32 : S8x320000x32.Idx → EReal) = x := rfl

set_option maxHeartbeats 400000 in
theorem V5_v58 (c : Dev nD) : V5 m ρ c main_v58 = Cert.Chain.aggOf (V4 m ρ c main_v31) (m ((c : Thread nD τ).loc main_arg1)) := by
  show StableHlo.after hostOps2 _ (Proc.devRef .tc main_v58) = _
  after_results_simp
  rw [W4_arg1, extf_eq]
  unfold Cert.Chain.aggOf Cert.Chain.endpoint1
  rfl

theorem V5_v4 (c : Dev nD) : V5 m ρ c main_v4 = transpose S32x1 [1, 0] (m ((c : Thread nD τ).loc main_arg10)) transposes_S1x32_S32x1_1_0 :=
  (W5_keep m ρ c main_v4 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
    ((W3_keep m ρ c main_v4 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v4 m ρ c))
theorem V5_v9 (c : Dev nD) : V5 m ρ c main_v9 = shapeCast _ (m ((c : Thread nD τ).loc main_arg11)) shapeCasts_S1_S1x1 :=
  (W5_keep m ρ c main_v9 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
    ((W3_keep m ρ c main_v9 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v9 m ρ c))
theorem V5_arg12 (c : Dev nD) : V5 m ρ c main_arg12 = (m ((c : Thread nD τ).loc main_arg12)) :=
  (W5_keep m ρ c main_arg12 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
    ((W3_keep m ρ c main_arg12 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_arg12 m ρ c))
theorem V5_v10 (c : Dev nD) : V5 m ρ c main_v10 = shapeCast _ (m ((c : Thread nD τ).loc main_arg13)) shapeCasts_S1_S1x1 :=
  (W5_keep m ρ c main_v10 (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans
    ((W3_keep m ρ c main_v10 (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) (by decide)).trans (W1_v10 m ρ c))

/-! ## The result: the graph readout of the third launch's node values -/

set_option maxHeartbeats 400000 in
theorem W7_v71 (c : Dev nD) : W7 m ρ c (Proc.devRef .tc main_v71) = Cert.Chain.tailOf (V6 m ρ c main_v59) (m ((c : Thread nD τ).loc main_arg14)) (m ((c : Thread nD τ).loc main_arg15)) := by
  show StableHlo.after hostOps3 _ (Proc.devRef .tc main_v71) = _
  after_results
  rw [W6_arg14, W6_arg15]
  unfold Cert.Chain.tailOf
  rfl

end Cert.KernelIdeal.KHost

end
-- ==== Proof.Node.lean ====
/-
  The first launch as a value: over a grid of the 8 batch entries, point b takes the whole [10000, 11] slab of the
  vertices and writes the whole [10000, 32] slab of the embeddings; the weights are fetched whole at every point.
-/
import proofs.«117053_j78151224918081_1_alg».proof.Proof.Gen.KernelIdeal.Frame
import proofs.«117053_j78151224918081_1_alg».proof.Proof.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two matrix products read at an entry -/

theorem first_lhs0 (i : S10000x32.Idx) (q : dot_S10000x11_S11x32_S10000x32_1_0_0_1_n_n.contr.Idx) :
    (dot_S10000x11_S11x32_S10000x32_1_0_0_1_n_n.lhsIdx i q 0).val = (i 0).val := by
  unfold DotDims.lhsIdx
  rw [dif_neg (show ¬(0 : Fin S10000x11.rank) ∈ dot_S10000x11_S11x32_S10000x32_1_0_0_1_n_n.lhsBatch by decide), dif_pos (show (0 : Fin S10000x11.rank) ∈ dot_S10000x11_S11x32_S10000x32_1_0_0_1_n_n.lhsNonContracting by decide)]
  rfl
theorem first_lhs1 (i : S10000x32.Idx) (q : dot_S10000x11_S11x32_S10000x32_1_0_0_1_n_n.contr.Idx) :
    (dot_S10000x11_S11x32_S10000x32_1_0_0_1_n_n.lhsIdx i q 1).val = (q ⟨0, by decide⟩).val :=
  dot_S10000x11_S11x32_S10000x32_1_0_0_1_n_n.lhsIdx_val_of_single rfl i q
theorem first_rhs0 (i : S10000x32.Idx) (q : dot_S10000x11_S11x32_S10000x32_1_0_0_1_n_n.contr.Idx) :
    (dot_S10000x11_S11x32_S10000x32_1_0_0_1_n_n.rhsIdx i q 0).val = (q ⟨0, by decide⟩).val :=
  dot_S10000x11_S11x32_S10000x32_1_0_0_1_n_n.rhsIdx_val_of_single rfl i q
theorem first_rhs1 (i : S10000x32.Idx) (q : dot_S10000x11_S11x32_S10000x32_1_0_0_1_n_n.contr.Idx) :
    (dot_S10000x11_S11x32_S10000x32_1_0_0_1_n_n.rhsIdx i q 1).val = (i 1).val := by
  unfold DotDims.rhsIdx
  rw [dif_neg (show ¬(1 : Fin S11x32.rank) ∈ dot_S10000x11_S11x32_S10000x32_1_0_0_1_n_n.rhsBatch by decide), dif_pos (show (1 : Fin S11x32.rank) ∈ dot_S10000x11_S11x32_S10000x32_1_0_0_1_n_n.rhsNonContracting by decide)]
  rfl

/-- Entry (n, j) of the first product: vertex row n against column j of the first weights, summed over the 11 features. -/
theorem first_product (a : FVec Ideal S10000x11 .bf16) (w : FVec Ideal S11x32 .bf16) (n : Fin 10000) (j : Fin 32) :
    matmul dot_S10000x11_S11x32_S10000x32_1_0_0_1_n_n none a w (constant (F := Ideal) S10000x32 .f32 0x00000000#32) (ix2 n j)
      = ∑ p : Fin 11, a (ix2 n p) * w (ix2 p j) := by
  refine (Ideal.matmul_constant_zero_apply dot_S10000x11_S11x32_S10000x32_1_0_0_1_n_n none a w (ix2 n j)).trans ?_
  rw [← Equiv.sum_comp (contrEquiv1 dot_S10000x11_S11x32_S10000x32_1_0_0_1_n_n 11 rfl rfl).symm]
  refine Finset.sum_congr rfl fun p _ => ?_
  have hp := contrEquiv1_symm_val dot_S10000x11_S11x32_S10000x32_1_0_0_1_n_n 11 rfl rfl p
  have el : dot_S10000x11_S11x32_S10000x32_1_0_0_1_n_n.lhsIdx (ix2 n j) ((contrEquiv1 dot_S10000x11_S11x32_S10000x32_1_0_0_1_n_n 11 rfl rfl).symm p) = ix2 n p := funext fun ax => Fin.ext (by
    match ax with
    | ⟨0, _⟩ => exact first_lhs0 _ _
    | ⟨1, _⟩ => exact (first_lhs1 _ _).trans hp)
  have er : dot_S10000x11_S11x32_S10000x32_1_0_0_1_n_n.rhsIdx (ix2 n j) ((contrEquiv1 dot_S10000x11_S11x32_S10000x32_1_0_0_1_n_n 11 rfl rfl).symm p) = ix2 p j := funext fun ax => Fin.ext (by
    match ax with
    | ⟨0, _⟩ => exact (first_rhs0 _ _).trans hp
    | ⟨1, _⟩ => exact first_rhs1 _ _)
  rw [el, er]

theorem second_lhs0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem second_lhs1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem second_rhs0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem second_rhs1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Entry (n, j) of the second product: hidden row n against column j of the second weights, summed over the 32 hidden units. -/
theorem second_product (a : FVec Ideal S10000x32 .bf16) (w : FVec Ideal S32x32 .bf16) (n : Fin 10000) (j : Fin 32) :
    matmul dot_S10000x32_S32x32_S10000x32_1_0_0_1_n_n none a w (constant (F := Ideal) S10000x32 .f32 0x00000000#32) (ix2 n j)
      = ∑ p : Fin 32, a (ix2 n p) * w (ix2 p j) := by
  refine (Ideal.matmul_constant_zero_apply dot_S10000x32_S32x32_S10000x32_1_0_0_1_n_n none a w (ix2 n j)).trans ?_
  rw [← Equiv.sum_comp (contrEquiv1 dot_S10000x32_S32x32_S10000x32_1_0_0_1_n_n 32 rfl rfl).symm]
  refine Finset.sum_congr rfl fun p _ => ?_
  have hp := contrEquiv1_symm_val dot_S10000x32_S32x32_S10000x32_1_0_0_1_n_n 32 rfl rfl p
  have el : dot_S10000x32_S32x32_S10000x32_1_0_0_1_n_n.lhsIdx (ix2 n j) ((contrEquiv1 dot_S10000x32_S32x32_S10000x32_1_0_0_1_n_n 32 rfl rfl).symm p) = ix2 n p := funext fun ax => Fin.ext (by
    match ax with
    | ⟨0, _⟩ => exact second_lhs0 _ _
    | ⟨1, _⟩ => exact (second_lhs1 _ _).trans hp)
  have er : dot_S10000x32_S32x32_S10000x32_1_0_0_1_n_n.rhsIdx (ix2 n j) ((contrEquiv1 dot_S10000x32_S32x32_S10000x32_1_0_0_1_n_n 32 rfl rfl).symm p) = ix2 p j := funext fun ax => Fin.ext (by
    match ax with
    | ⟨0, _⟩ => exact (second_rhs0 _ _).trans hp
    | ⟨1, _⟩ => exact second_rhs1 _ _)
  rw [el, er]

/-! ## The body's arithmetic at an entry -/

/-- Entry (0, n, h) of the slab the body stores is the two-layer perceptron of row n of the slab it loaded. -/
theorem payload_apply (x0 : Vec Ideal S1x10000x11 .f32) (x1 : Vec Ideal S11x32 .f32) (x2 : Vec Ideal S1x32 .f32)
    (x3 : Vec Ideal S32x32 .f32) (x4 : Vec Ideal S1x32 .f32) (n : Fin 10000) (h : Fin 32) :
    k0_pay1 (F := Ideal) x0 x1 x2 x3 x4 (ix3 (0 : Fin 1) n h)
      = Cert.Spec.mlp2 (fun f : Fin 11 => x0 (ix3 (0 : Fin 1) n f)) (fun f k => x1 (ix2 f k)) (fun k : Fin 32 => x2 (ix2 (0 : Fin 1) k))
          (fun k => x3 (ix2 k h)) (x4 (ix2 (0 : Fin 1) h)) := by
  unfold k0_pay1
  simp only [shapeCast_self]
  refine (shapeCast_ab_1ab_apply _ shapeCasts_S10000x32_S1x10000x32 (0 : Fin 1) n h).trans ?_
  rw [truncf_apply, maximumf_apply, broadcast_apply, addf_apply, second_product, broadcastTo_1b_ab_apply]
  unfold Cert.Spec.mlp2 Cert.Spec.relu
  refine congrArg (fun z => max (z + x4 (ix2 (0 : Fin 1) h)) (Ideal.ofBits .f32 0x00000000#32)) ?_
  refine Finset.sum_congr rfl fun k _ => ?_
  rw [truncf_apply, maximumf_apply, broadcast_apply, addf_apply, first_product, broadcastTo_1b_ab_apply, truncf_apply]
  refine congrArg (fun z => max (z + x2 (ix2 (0 : Fin 1) k)) (Ideal.ofBits .f32 0x00000000#32) * x3 (ix2 k h)) ?_
  refine Finset.sum_congr rfl fun f _ => ?_
  rw [truncf_apply, shapeCast_1ab_ab_apply, truncf_apply]

/-! ## From the blocks to the array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid of 8 points: point t takes batch entry t of the vertices and of the
    embeddings, and the whole of each weight array. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The vertices' block at point t is batch entry t of the vertices. -/
theorem vertices_block (c : Dev nD) (t : Fin cfg0.N) (b : Fin 8) (hb : b.val = t.val) (u : Fin 1) (n : Fin 10000) (f : Fin 11) :
    (iblk0 V c 0 t : Vec Ideal S1x10000x11 .f32) (ix3 u n f) = (V c main_arg0 : S8x10000x11.Idx → EReal) (ix3 b n f) := by
  obtain ⟨e0, e1, e2, -⟩ := index_facts t
  show V c main_arg0 (((cfg0.win 0).blk t).view.emb (ix3 u n f)) = V c main_arg0 (ix3 b n f)
  refine congrArg _ (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 10000 + 1 * n.val = n.val; omega
  | ⟨2, _⟩ => show win0_0.index t (2 : Fin 3) * 11 + 1 * f.val = f.val; omega

/-- The first weights' block at every point is the whole array. -/
theorem weights1_block (c : Dev nD) (t : Fin cfg0.N) (y : S11x32.Idx) :
    (iblk0 V c 1 t : Vec Ideal S11x32 .f32) y = (V c main_v0 : S11x32.Idx → EReal) y := by
  obtain ⟨-, -, -, e0, e1, -⟩ := index_facts t
  show V c main_v0 (((cfg0.win 1).blk t).view.emb y) = V c main_v0 y
  refine congrArg _ (funext fun a => Fin.ext ?_)
  match a with
  | ⟨0, _⟩ => show win0_1.index t (0 : Fin 2) * 11 + 1 * (y 0).val = (y 0).val; omega
  | ⟨1, _⟩ => show win0_1.index t (1 : Fin 2) * 32 + 1 * (y 1).val = (y 1).val; omega

/-- The first bias row's block at every point is the whole row. -/
theorem bias1_block (c : Dev nD) (t : Fin cfg0.N) (y : S1x32.Idx) :
    (iblk0 V c 2 t : Vec Ideal S1x32 .f32) y = (V c main_v5 : S1x32.Idx → EReal) y := by
  obtain ⟨-, -, -, -, -, e0, e1, -⟩ := index_facts t
  show V c main_v5 (((cfg0.win 2).blk t).view.emb y) = V c main_v5 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second weights' block at every point is the whole array. -/
theorem weights2_block (c : Dev nD) (t : Fin cfg0.N) (y : S32x32.Idx) :
    (iblk0 V c 3 t : Vec Ideal S32x32 .f32) y = (V c main_v1 : S32x32.Idx → EReal) y := by
  obtain ⟨-, -, -, -, -, -, -, e0, e1, -⟩ := index_facts t
  show V c main_v1 (((cfg0.win 3).blk t).view.emb y) = V c main_v1 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The second bias row's block at every point is the whole row. -/
theorem bias2_block (c : Dev nD) (t : Fin cfg0.N) (y : S1x32.Idx) :
    (iblk0 V c 4 t : Vec Ideal S1x32 .f32) y = (V c main_v6 : S1x32.Idx → EReal) y := by
  obtain ⟨-, -, -, -, -, -, -, -, -, e0, e1, -⟩ := index_facts t
  show V c main_v6 (((cfg0.win 4).blk t).view.emb y) = V c main_v6 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- What point t writes back is block t of the perceptron of the arrays the launch found. -/
theorem flushed_eq (c : Dev nD) (t : Fin cfg0.N) :
    (dat0 (F := Ideal) V c).flushed 5 t
      = ((cfg0.win 5).blk t).view.read (Elt Ideal) (Cert.Chain.nodeK (V c main_arg0) (V c main_v0) (V c main_v5) (V c main_v1) (V c main_v6)) := by
  show (cfg0.win 5).cut (grid0.coords t) ((dat0 V c).after 5 t) = _
  rw [after0_5]
  unfold out0_5
  rw [View.canon_unit_zero zeros3]
  simp only [View.ld_unit_zero (S := S1x10000x11) zeros3, View.ld_unit_zero (S := S11x32) zeros2, View.ld_unit_zero (S := S1x32) zeros2, View.ld_unit_zero (S := S32x32) zeros2]
  funext j
  obtain ⟨u, n, h, rfl⟩ : ∃ (u : Fin 1) (n : Fin 10000) (h : Fin 32), j = ix3 u n h := ⟨j 0, j 1, j 2, eq_ix3 j⟩
  obtain rfl : u = 0 := Fin.fin_one_eq_zero u
  have hb : t.val < 8 := Nat.lt_of_lt_of_eq t.isLt N_0
  have he : ((cfg0.win 5).blk t).view.emb (ix3 (0 : Fin 1) n h) = (ix3 (⟨t.val, hb⟩ : Fin 8) n h : S8x10000x32.Idx) := by
    obtain ⟨-, -, -, -, -, -, -, -, -, -, -, e0, e1, e2⟩ := index_facts t
    funext a; apply Fin.ext
    match a with
    | ⟨0, _⟩ => show win0_5.index t (0 : Fin 3) * 1 + 1 * 0 = t.val; omega
    | ⟨1, _⟩ => show win0_5.index t (1 : Fin 3) * 10000 + 1 * n.val = n.val; omega
    | ⟨2, _⟩ => show win0_5.index t (2 : Fin 3) * 32 + 1 * h.val = h.val; omega
  show k0_pay1 (F := Ideal) (iblk0 V c 0 t) (iblk0 V c 1 t) (iblk0 V c 2 t) (iblk0 V c 3 t) (iblk0 V c 4 t) (ix3 (0 : Fin 1) n h)
      = Cert.Chain.nodeK (V c main_arg0) (V c main_v0) (V c main_v5) (V c main_v1) (V c main_v6) (((cfg0.win 5).blk t).view.emb (ix3 (0 : Fin 1) n h))
  rw [he]
  refine (payload_apply (iblk0 V c 0 t) (iblk0 V c 1 t) (iblk0 V c 2 t) (iblk0 V c 3 t) (iblk0 V c 4 t) n h).trans ?_
  show _ = Cert.Chain.nodeKC (V c main_arg0) (V c main_v0) (V c main_v5) (V c main_v1) (V c main_v6) ⟨t.val, hb⟩ n h
  unfold Cert.Chain.nodeKC
  simp only [vertices_block V c t ⟨t.val, hb⟩ rfl, weights1_block V c t, bias1_block V c t, weights2_block V c t, bias2_block V c t]

/-- An index of the embeddings is in point t's block iff each coordinate is in the block's range on its axis. -/
theorem mem_blk (t : Fin cfg0.N) (i : S8x10000x32.Idx) :
    i ∈ ((cfg0.win 5).blk t).view.set ↔ ∀ a : Fin 3, win0_5.index t a * S1x10000x32.size a ≤ (i a).val ∧ (i a).val < win0_5.index t a * S1x10000x32.size a + S1x10000x32.size a := by
  show i ∈ ((View.whole main_v11).slice (win0_5.rect t)).set ↔ _
  rw [View.set_slice_whole, Rect.mem_set_unit]
  exact Iff.rfl

/-- Every index of the embeddings lies in the block of the point its batch coordinate names. -/
theorem cover (i : S8x10000x32.Idx) :
    ∃ t : Fin cfg0.N, (cfg0.win 5).flush t = true ∧ i ∈ ((cfg0.win 5).blk t).view.set := by
  have hi0 : (i 0).val < 8 := (i 0).isLt
  have hi1 : (i 1).val < 10000 := (i 1).isLt
  have hi2 : (i 2).val < 32 := (i 2).isLt
  obtain ⟨t, ht⟩ : ∃ t : Fin cfg0.N, t.val = (i 0).val := ⟨⟨(i 0).val, Nat.lt_of_lt_of_eq hi0 N_0.symm⟩, rfl⟩
  refine ⟨t, flush0_5 t, ?_⟩
  rw [mem_blk]
  obtain ⟨-, -, -, -, -, -, -, -, -, -, -, e0, e1, e2⟩ := index_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 10000 ≤ (i 1).val ∧ (i 1).val < win0_5.index t (1 : Fin 3) * 10000 + 10000; omega
  | ⟨2, _⟩ => show win0_5.index t (2 : Fin 3) * 32 ≤ (i 2).val ∧ (i 2).val < win0_5.index t (2 : Fin 3) * 32 + 32; omega

/-- After the launch the embeddings' array holds the two-layer perceptron of every vertex row, whatever the
    buffers held when the launch was entered (`V`). -/
theorem arr (c : Dev nD) :
    (dat0 (F := Ideal) V c).arrAt 5 cfg0.N
      = Cert.Chain.nodeK (V c main_arg0) (V c main_v0) (V c main_v5) (V c main_v1) (V c main_v6) := by
  exact (dat0 (F := Ideal) V c).arrAt_eq_of_cover 5 _ (fun t _ => flushed_eq V c t) cover

end Cert.KernelIdeal.Node

end
-- ==== Proof.Edge.lean ====
/-
  The second launch as a value: over a grid of 8 batch entries by 32 tiles of 10000 edges, point (b, e) takes a
  [10000, 64] tile of the edge features and writes the matching [10000, 32] tile of the messages.
-/
import proofs.«117053_j78151224918081_1_alg».proof.Proof.Gen.KernelIdeal.Frame
import proofs.«117053_j78151224918081_1_alg».proof.Proof.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The two products of a tile at an index -/

theorem lhsA_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhsA_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhsA_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhsA_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The first product: row `r` of the tile against column `k` of the first weights, summed over the 64 features. -/
theorem mulA_apply (l : FVec Ideal S10000x64 .bf16) (w : FVec Ideal S64x32 .bf16) (r : Fin 10000) (k : Fin 32) :
    matmul dot_S10000x64_S64x32_S10000x32_1_0_0_1_n_n none l w (constant (F := Ideal) S10000x32 .f32 0x00000000#32) (ix2 r k)
      = ∑ f : Fin 64, l (ix2 r f) * w (ix2 f k) := by
  refine (Ideal.matmul_constant_zero_apply dot_S10000x64_S64x32_S10000x32_1_0_0_1_n_n none l w (ix2 r k)).trans ?_
  rw [← Equiv.sum_comp (contrEquiv1 dot_S10000x64_S64x32_S10000x32_1_0_0_1_n_n 64 rfl rfl).symm]
  refine Finset.sum_congr rfl fun f _ => ?_
  have hk := contrEquiv1_symm_val dot_S10000x64_S64x32_S10000x32_1_0_0_1_n_n 64 rfl rfl f
  have el : dot_S10000x64_S64x32_S10000x32_1_0_0_1_n_n.lhsIdx (ix2 r k) ((contrEquiv1 dot_S10000x64_S64x32_S10000x32_1_0_0_1_n_n 64 rfl rfl).symm f) = ix2 r f := funext fun a => Fin.ext (by
    match a with
    | ⟨0, _⟩ => exact lhsA_0 _ _
    | ⟨1, _⟩ => exact (lhsA_1 _ _).trans hk)
  have er : dot_S10000x64_S64x32_S10000x32_1_0_0_1_n_n.rhsIdx (ix2 r k) ((contrEquiv1 dot_S10000x64_S64x32_S10000x32_1_0_0_1_n_n 64 rfl rfl).symm f) = ix2 f k := funext fun a => Fin.ext (by
    match a with
    | ⟨0, _⟩ => exact (rhsA_0 _ _).trans hk
    | ⟨1, _⟩ => exact rhsA_1 _ _)
  rw [el, er]

theorem lhsB_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhsB_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhsB_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhsB_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The second product: row `r` of the hidden layer against column `h` of the second weights, summed over the 32 units. -/
theorem mulB_apply (l : FVec Ideal S10000x32 .bf16) (w : FVec Ideal S32x32 .bf16) (r : Fin 10000) (h : Fin 32) :
    matmul dot_S10000x32_S32x32_S10000x32_1_0_0_1_n_n none l w (constant (F := Ideal) S10000x32 .f32 0x00000000#32) (ix2 r h)
      = ∑ k : Fin 32, l (ix2 r k) * w (ix2 k h) := by
  refine (Ideal.matmul_constant_zero_apply dot_S10000x32_S32x32_S10000x32_1_0_0_1_n_n none l w (ix2 r h)).trans ?_
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 r h) ((contrEquiv1 dot_S10000x32_S32x32_S10000x32_1_0_0_1_n_n 32 rfl rfl).symm k) = ix2 r k := funext fun a => Fin.ext (by
    match a with
    | ⟨0, _⟩ => exact lhsB_0 _ _
    | ⟨1, _⟩ => exact (lhsB_1 _ _).trans hk)
  have er : dot_S10000x32_S32x32_S10000x32_1_0_0_1_n_n.rhsIdx (ix2 r h) ((contrEquiv1 dot_S10000x32_S32x32_S10000x32_1_0_0_1_n_n 32 rfl rfl).symm k) = ix2 k h := funext fun a => Fin.ext (by
    match a with
    | ⟨0, _⟩ => exact (rhsB_0 _ _).trans hk
    | ⟨1, _⟩ => exact rhsB_1 _ _)
  rw [el, er]

/-! ## The body's arithmetic at an index -/

/-- Entry (r, h) of the tile the body stores is the two-layer perceptron of row `r` of the tile it loaded. -/
theorem pay_apply (x0 : Vec Ideal S1x10000x64 .bf16) (x1 : Vec Ideal S64x32 .f32) (x2 : Vec Ideal S1x32 .f32)
    (x3 : Vec Ideal S32x32 .f32) (x4 : Vec Ideal S1x32 .f32) (r : Fin 10000) (h : Fin 32) :
    k1_pay1 (F := Ideal) x0 x1 x2 x3 x4 (ix3 (0 : Fin 1) r h)
      = Cert.Spec.mlp2 (fun f : Fin 64 => x0 (ix3 (0 : Fin 1) r f)) (fun f k => x1 (ix2 f k)) (fun k : Fin 32 => x2 (ix2 (0 : Fin 1) k))
          (fun k => x3 (ix2 k h)) (x4 (ix2 (0 : Fin 1) h)) := by
  unfold k1_pay1
  simp only [shapeCast_self]
  refine (shapeCast_ab_1ab_apply _ shapeCasts_S10000x32_S1x10000x32 (0 : Fin 1) r h).trans ?_
  rw [truncf_apply, maximumf_apply, broadcast_apply, addf_apply, mulB_apply, broadcastTo_1b_ab_apply]
  unfold Cert.Spec.mlp2 Cert.Spec.relu
  refine congrArg (fun z => max (z + x4 (ix2 (0 : Fin 1) h)) (Ideal.ofBits .f32 0x00000000#32)) ?_
  refine Finset.sum_congr rfl fun k _ => ?_
  rw [truncf_apply, maximumf_apply, broadcast_apply, addf_apply, mulA_apply, broadcastTo_1b_ab_apply, truncf_apply]
  refine congrArg (fun z => max (z + x2 (ix2 (0 : Fin 1) k)) (Ideal.ofBits .f32 0x00000000#32) * x3 (ix2 k h)) ?_
  refine Finset.sum_congr rfl fun f _ => ?_
  rw [shapeCast_1ab_ab_apply, truncf_apply]

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem idx_facts : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) ≤ 7 ∧ win1_5.index t (1 : Fin 3) ≤ 31 :=
  (by decide +kernel : ∀ t : Fin grid1.N, _)

theorem idx_onto : ∀ (q0 : Fin 8) (q1 : Fin 32), ∃ t : Fin cfg1.N,
    win1_5.index t (0 : Fin 3) = q0.val ∧ win1_5.index t (1 : Fin 3) = q1.val :=
  (by decide +kernel : ∀ (q0 : Fin 8) (q1 : Fin 32), ∃ t : Fin grid1.N,
    win1_5.index t (0 : Fin 3) = q0.val ∧ win1_5.index t (1 : Fin 3) = q1.val)

/-! ## The blocks a point is handed -/

/-- The first weights are handed whole to every point. -/
theorem blk_w1 (c : Dev nD) (t : Fin cfg1.N) (y : S64x32.Idx) :
    (iblk1 (F := Ideal) V c 1 t : Vec Ideal S64x32 .f32) y = (V c main_v2 : S64x32.Idx → EReal) y := by
  obtain ⟨-, -, -, -, e0, e1, -⟩ := idx_facts t
  show V c main_v2 (((cfg1.win 1).blk t).view.emb y) = V c main_v2 y
  refine congrArg (V c main_v2) (funext fun a => Fin.ext ?_)
  match a with
  | ⟨0, _⟩ => show win1_1.index t (0 : Fin 2) * 64 + 1 * (y 0).val = (y 0).val; omega
  | ⟨1, _⟩ => show win1_1.index t (1 : Fin 2) * 32 + 1 * (y 1).val = (y 1).val; omega

/-- The first bias row is handed whole to every point. -/
theorem blk_w2 (c : Dev nD) (t : Fin cfg1.N) (y : S1x32.Idx) :
    (iblk1 (F := Ideal) V c 2 t : Vec Ideal S1x32 .f32) y = (V c main_v7 : S1x32.Idx → EReal) y := by
  obtain ⟨-, -, -, -, -, -, e0, e1, -⟩ := idx_facts t
  show V c main_v7 (((cfg1.win 2).blk t).view.emb y) = V c main_v7 y
  refine congrArg (V c main_v7) (funext fun a => Fin.ext ?_)
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- The second weights are handed whole to every point. -/
theorem blk_w3 (c : Dev nD) (t : Fin cfg1.N) (y : S32x32.Idx) :
    (iblk1 (F := Ideal) V c 3 t : Vec Ideal S32x32 .f32) y = (V c main_v3 : S32x32.Idx → EReal) y := by
  obtain ⟨-, -, -, -, -, -, -, -, e0, e1, -⟩ := idx_facts t
  show V c main_v3 (((cfg1.win 3).blk t).view.emb y) = V c main_v3 y
  refine congrArg (V c main_v3) (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The second bias row is handed whole to every point. -/
theorem blk_w4 (c : Dev nD) (t : Fin cfg1.N) (y : S1x32.Idx) :
    (iblk1 (F := Ideal) V c 4 t : Vec Ideal S1x32 .f32) y = (V c main_v8 : S1x32.Idx → EReal) y := by
  obtain ⟨-, -, -, -, -, -, -, -, -, -, e0, e1, -⟩ := idx_facts t
  show V c main_v8 (((cfg1.win 4).blk t).view.emb y) = V c main_v8 y
  refine congrArg (V c main_v8) (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- Row `r` of the feature tile at point `t` is row `e` of batch entry `b` of the edge features, where (b, e) is the
    place in the messages' array of row `r` of the tile the point writes. -/
theorem blk_w0 (c : Dev nD) (t : Fin cfg1.N) (r : Fin 10000) (f : Fin 64) (b : Fin 8) (e : Fin 320000)
    (hb : b.val = win1_5.index t (0 : Fin 3) * 1 + 1 * 0) (he : e.val = win1_5.index t (1 : Fin 3) * 10000 + 1 * r.val) :
    (iblk1 (F := Ideal) V c 0 t : Vec Ideal S1x10000x64 .bf16) (ix3 (0 : Fin 1) r f)
      = (V c main_v30 : S8x320000x64.Idx → EReal) (ix3 b e f) := by
  obtain ⟨e0, e1, e2, -⟩ := idx_facts t
  show V c main_v30 (((cfg1.win 0).blk t).view.emb (ix3 (0 : Fin 1) r f)) = V c main_v30 (ix3 b e f)
  refine congrArg (V c main_v30) (funext fun a => Fin.ext ?_)
  match a with
  | ⟨0, _⟩ => show win1_0.index t (0 : Fin 3) * 1 + 1 * 0 = b.val; omega
  | ⟨1, _⟩ => show win1_0.index t (1 : Fin 3) * 10000 + 1 * r.val = e.val; omega
  | ⟨2, _⟩ => show win1_0.index t (2 : Fin 3) * 64 + 1 * f.val = f.val; omega

/-! ## What a point writes back -/

/-- The perceptron of row `r` of point `t`'s blocks is the entry of the perceptron of the whole arrays at the index `i`
    where the point's tile puts its row `r`, feature `h`. -/
theorem tile_entry (c : Dev nD) (t : Fin cfg1.N) (r : Fin 10000) (h : Fin 32) (i : S8x320000x32.Idx)
    (h0 : (i 0).val = win1_5.index t (0 : Fin 3) * 1 + 1 * 0) (h1 : (i 1).val = win1_5.index t (1 : Fin 3) * 10000 + 1 * r.val)
    (h2 : (i 2).val = h.val) :
    Cert.Spec.mlp2 (fun f : Fin 64 => (iblk1 (F := Ideal) V c 0 t : Vec Ideal S1x10000x64 .bf16) (ix3 (0 : Fin 1) r f))
        (fun f k => (iblk1 (F := Ideal) V c 1 t : Vec Ideal S64x32 .f32) (ix2 f k))
        (fun k : Fin 32 => (iblk1 (F := Ideal) V c 2 t : Vec Ideal S1x32 .f32) (ix2 (0 : Fin 1) k))
        (fun k => (iblk1 (F := Ideal) V c 3 t : Vec Ideal S32x32 .f32) (ix2 k h))
        ((iblk1 (F := Ideal) V c 4 t : Vec Ideal S1x32 .f32) (ix2 (0 : Fin 1) h))
      = Cert.Chain.edgeK (V c main_v30) (V c main_v2) (V c main_v7) (V c main_v3) (V c main_v8) i := by
  obtain rfl : h = i 2 := Fin.ext h2.symm
  show _ = Cert.Spec.mlp2 (fun f : Fin 64 => (V c main_v30 : S8x320000x64.Idx → EReal) (ix3 (i 0) (i 1) f))
      (fun f k => (V c main_v2 : S64x32.Idx → EReal) (ix2 f k))
      (fun k : Fin 32 => (V c main_v7 : S1x32.Idx → EReal) (ix2 (0 : Fin 1) k))
      (fun k => (V c main_v3 : S32x32.Idx → EReal) (ix2 k (i 2)))
      ((V c main_v8 : S1x32.Idx → EReal) (ix2 (0 : Fin 1) (i 2)))
  exact congr (congr (congr (congr (congrArg Cert.Spec.mlp2
    (funext fun f => blk_w0 V c t r f (i 0) (i 1) h0 h1))
    (funext fun f => funext fun k => blk_w1 V c t (ix2 f k)))
    (funext fun k => blk_w2 V c t (ix2 (0 : Fin 1) k)))
    (funext fun k => blk_w3 V c t (ix2 k (i 2))))
    (blk_w4 V c t (ix2 (0 : Fin 1) (i 2)))

/-- Point `t` writes back its tile of the perceptron of the whole edge-feature array. -/
theorem flushed_eq (c : Dev nD) (t : Fin cfg1.N) :
    (dat1 (F := Ideal) V c).flushed 5 t = ((cfg1.win 5).blk t).view.read (Elt Ideal)
      (Cert.Chain.edgeK (V c main_v30) (V c main_v2) (V c main_v7) (V c main_v3) (V c main_v8)) := by
  show (cfg1.win 5).cut (grid1.coords t) ((dat1 V c).after 5 t) = _
  rw [after1_5]
  unfold out1_5
  rw [View.canon_unit_zero hz3]
  simp only [View.ld_unit_zero (S := S1x10000x64) hz3, View.ld_unit_zero (S := S64x32) hz2, View.ld_unit_zero (S := S1x32) hz2, View.ld_unit_zero (S := S32x32) hz2]
  funext j
  obtain ⟨u, r, h, rfl⟩ : ∃ (u : Fin 1) (r : Fin 10000) (h : Fin 32), j = ix3 u r h := ⟨j 0, j 1, j 2, eq_ix3 j⟩
  obtain rfl : u = 0 := Subsingleton.elim _ _
  obtain ⟨-, -, -, e3, -⟩ := idx_facts t
  show k1_pay1 (F := Ideal) (iblk1 V c 0 t) (iblk1 V c 1 t) (iblk1 V c 2 t) (iblk1 V c 3 t) (iblk1 V c 4 t) (ix3 (0 : Fin 1) r h)
    = Cert.Chain.edgeK (V c main_v30) (V c main_v2) (V c main_v7) (V c main_v3) (V c main_v8) (((cfg1.win 5).blk t).view.emb (ix3 (0 : Fin 1) r h))
  refine (pay_apply (iblk1 V c 0 t) (iblk1 V c 1 t) (iblk1 V c 2 t) (iblk1 V c 3 t) (iblk1 V c 4 t) r h).trans ?_
  exact tile_entry V c t r h (((cfg1.win 5).blk t).view.emb (ix3 (0 : Fin 1) r h)) rfl rfl
    (by show win1_5.index t (2 : Fin 3) * 32 + 1 * h.val = h.val; omega)

/-! ## From the tiles to the array -/

/-- An index of the messages' array is in point `t`'s tile iff each coordinate is in the tile's range on its axis. -/
theorem mem_blk (t : Fin cfg1.N) (i : S8x320000x32.Idx) :
    i ∈ ((cfg1.win 5).blk t).view.set ↔ ∀ a : Fin 3, win1_5.index t a * S1x10000x32.size a ≤ (i a).val
      ∧ (i a).val < win1_5.index t a * S1x10000x32.size a + S1x10000x32.size a := by
  show i ∈ ((View.whole main_v31).slice (win1_5.rect t)).set ↔ _
  rw [View.set_slice_whole, Rect.mem_set_unit]
  exact Iff.rfl

/-- The tiles cover the array: index (b, e, h) lies in the tile of the point with batch entry `b` and edge tile `e / 10000`. -/
theorem cover (i : S8x320000x32.Idx) :
    ∃ t : Fin cfg1.N, (cfg1.win 5).flush t = true ∧ i ∈ ((cfg1.win 5).blk t).view.set := by
  have hi0 : (i 0).val < 8 := (i 0).isLt
  have hi1 : (i 1).val < 320000 := (i 1).isLt
  have hi2 : (i 2).val < 32 := (i 2).isLt
  obtain ⟨t, q0, q1⟩ := idx_onto ⟨(i 0).val, hi0⟩ ⟨(i 1).val / 10000, by omega⟩
  have q0' : win1_5.index t (0 : Fin 3) = (i 0).val := q0
  have q1' : win1_5.index t (1 : Fin 3) = (i 1).val / 10000 := q1
  obtain ⟨-, -, -, e3, -⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 10000 ≤ (i 1).val ∧ (i 1).val < win1_5.index t (1 : Fin 3) * 10000 + 10000; omega
  | ⟨2, _⟩ => show win1_5.index t (2 : Fin 3) * 32 ≤ (i 2).val ∧ (i 2).val < win1_5.index t (2 : Fin 3) * 32 + 32; omega

/-- After the launch the messages' array holds the two-layer perceptron of every edge-feature row. -/
theorem arr (c : Dev nD) :
    (dat1 (F := Ideal) V c).arrAt 5 cfg1.N
      = Cert.Chain.edgeK (V c main_v30) (V c main_v2) (V c main_v7) (V c main_v3) (V c main_v8) :=
  (dat1 (F := Ideal) V c).arrAt_eq_of_cover 5 _ (fun t _ => flushed_eq V c t) cover

end Cert.KernelIdeal.Edge

end
-- ==== Proof.Vert.lean ====
/-
  The third launch as a value: over a grid of the 8 batch entries, point b takes the [10000, 32] slab of the mean
  messages and writes the [10000, 1] slab of node values.
-/
import proofs.«117053_j78151224918081_1_alg».proof.Proof.Gen.KernelIdeal.Frame
import proofs.«117053_j78151224918081_1_alg».proof.Proof.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The one matrix product of the body, read at an entry -/

theorem lhs_mm_0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem lhs_mm_1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q
theorem rhs_mm_0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q
theorem rhs_mm_1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- Entry (n, 0) of the product of a [10000, 32] matrix with a [32, 1] column, into a zero accumulator, is row n
    against the column. -/
theorem mm_apply (l : FVec Ideal S10000x32 .bf16) (r : FVec Ideal S32x1 .bf16) (n : Fin 10000) :
    matmul (F := Ideal) dot_S10000x32_S32x1_S10000x1_1_0_0_1_n_n none l r (constant (F := Ideal) S10000x1 .f32 0x00000000#32) (ix2 n (0 : Fin 1))
      = ∑ k : Fin 32, l (ix2 n k) * r (ix2 k (0 : Fin 1)) := by
  refine (Ideal.matmul_constant_zero_apply dot_S10000x32_S32x1_S10000x1_1_0_0_1_n_n none l r (ix2 n (0 : Fin 1))).trans ?_
  rw [← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 n (0 : Fin 1)) ((contrEquiv1 dot_S10000x32_S32x1_S10000x1_1_0_0_1_n_n 32 rfl rfl).symm k) = ix2 n k := funext fun a => Fin.ext (by
    match a with
    | ⟨0, _⟩ => exact lhs_mm_0 _ _
    | ⟨1, _⟩ => exact (lhs_mm_1 _ _).trans hk)
  have er : dot_S10000x32_S32x1_S10000x1_1_0_0_1_n_n.rhsIdx (ix2 n (0 : Fin 1)) ((contrEquiv1 dot_S10000x32_S32x1_S10000x1_1_0_0_1_n_n 32 rfl rfl).symm k) = ix2 k (0 : Fin 1) := funext fun a => Fin.ext (by
    match a with
    | ⟨0, _⟩ => exact (rhs_mm_0 _ _).trans hk
    | ⟨1, _⟩ => exact rhs_mm_1 _ _)
  rw [el, er]

/-! ## The body's result at an entry -/

/-- Entry (0, n, 0) of what the body stores is the readout of row n of the slab it loaded. -/
theorem pay_apply (x0 : Vec Ideal S1x10000x32 .f32) (x1 : Vec Ideal S32x1 .f32) (x2 x3 x4 : Vec Ideal S1x1 .f32) (n : Fin 10000) :
    k2_pay1 (F := Ideal) x0 x1 x2 x3 x4 (ix3 (0 : Fin 1) n (0 : Fin 1))
      = Cert.Spec.readout (fun k : Fin 32 => x0 (ix3 (0 : Fin 1) n k)) (fun k => x1 (ix2 k (0 : Fin 1))) (x2 (ix2 (0 : Fin 1) (0 : Fin 1))) (x3 (ix2 (0 : Fin 1) (0 : Fin 1))) (x4 (ix2 (0 : Fin 1) (0 : Fin 1))) := by
  unfold k2_pay1
  refine (shapeCast_ab_1ab_apply _ _ (0 : Fin 1) n (0 : Fin 1)).trans ?_
  rw [maximumf_apply, addf_apply, mulf_apply, maximumf_apply, addf_apply, broadcast_apply]
  rw [mm_apply, broadcastTo_1b_ab_apply, broadcastTo_1b_ab_apply, broadcastTo_1b_ab_apply]
  simp only [shapeCast_self, truncf_apply, shapeCast_1ab_ab_apply]
  rfl

variable (V : (c : Dev nD) → (b : Ref sig .tc) → Buf (Elt Ideal) ((c : Thread nD τ).loc b))

/-! ## Where each window's block sits in its array -/

theorem hz : (![0, 0, 0] : Fin 3 → Nat) = fun _ => 0 := funext fun a => by fin_cases a <;> rfl
theorem hz2 : (![0, 0] : Fin 2 → Nat) = fun _ => 0 := funext fun a => by fin_cases a <;> rfl

/-- The printed index maps over the grid: point t takes slab t of the mean messages and of the node values, and
    the weights whole. -/
theorem idx_facts : ∀ t : Fin cfg2.N,
    win2_0.index t (0 : Fin 3) = t.val ∧ win2_0.index t (1 : Fin 3) = 0 ∧ win2_0.index t (2 : Fin 3) = 0
    ∧ win2_5.index t (0 : Fin 3) = t.val ∧ win2_5.index t (1 : Fin 3) = 0 ∧ win2_5.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Point t's block of the mean messages is slab t of the array. -/
theorem blk0_apply (c : Dev nD) (t : Fin cfg2.N) (n : Fin 10000) (k : Fin 32) (i : S8x10000x32.Idx)
    (h0 : (i 0).val = t.val) (h1 : (i 1).val = n.val) (h2 : (i 2).val = k.val) :
    (iblk2 (F := Ideal) V c 0 t : Vec Ideal S1x10000x32 .f32) (ix3 (0 : Fin 1) n k) = (V c main_v58 : S8x10000x32.Idx → EReal) i := by
  obtain ⟨e0, e1, e2, -⟩ := idx_facts t
  unfold iblk2
  rw [View.read_apply]
  show V c main_v58 (((cfg2.win 0).blk t).view.emb (ix3 (0 : Fin 1) n k)) = V c main_v58 i
  refine congrArg _ (funext fun a => Fin.ext ?_)
  match a with
  | ⟨0, _⟩ => show win2_0.index t (0 : Fin 3) * 1 + 1 * 0 = (i 0).val; omega
  | ⟨1, _⟩ => show win2_0.index t (1 : Fin 3) * 10000 + 1 * n.val = (i 1).val; omega
  | ⟨2, _⟩ => show win2_0.index t (2 : Fin 3) * 32 + 1 * k.val = (i 2).val; omega

/-- The first layer's weights are taken whole at every point. -/
theorem blk1_apply (c : Dev nD) (t : Fin cfg2.N) (k : Fin 32) :
    (iblk2 (F := Ideal) V c 1 t : Vec Ideal S32x1 .f32) (ix2 k (0 : Fin 1)) = (V c main_v4 : S32x1.Idx → EReal) (ix2 k (0 : Fin 1)) := by
  obtain ⟨-, -, -, -, -, -, e0, e1, -⟩ := idx_facts t
  unfold iblk2
  rw [View.read_apply]
  show V c main_v4 (((cfg2.win 1).blk t).view.emb (ix2 k (0 : Fin 1))) = V c main_v4 (ix2 k (0 : Fin 1))
  refine congrArg _ (funext fun a => Fin.ext ?_)
  match a with
  | ⟨0, _⟩ => show win2_1.index t (0 : Fin 2) * 32 + 1 * k.val = k.val; omega
  | ⟨1, _⟩ => show win2_1.index t (1 : Fin 2) * 1 + 1 * 0 = 0; omega

/-- So are the three one-entry operands: the first bias, the second weight, the second bias. -/
theorem blk2_apply (c : Dev nD) (t : Fin cfg2.N) :
    (iblk2 (F := Ideal) V c 2 t : Vec Ideal S1x1 .f32) (ix2 (0 : Fin 1) (0 : Fin 1)) = (V c main_v9 : S1x1.Idx → EReal) (ix2 (0 : Fin 1) (0 : Fin 1)) := by
  obtain ⟨-, -, -, -, -, -, -, -, e0, e1, -⟩ := idx_facts t
  unfold iblk2
  rw [View.read_apply]
  show V c main_v9 (((cfg2.win 2).blk t).view.emb (ix2 (0 : Fin 1) (0 : Fin 1))) = V c main_v9 (ix2 (0 : Fin 1) (0 : Fin 1))
  refine congrArg _ (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

theorem blk3_apply (c : Dev nD) (t : Fin cfg2.N) :
    (iblk2 (F := Ideal) V c 3 t : Vec Ideal S1x1 .f32) (ix2 (0 : Fin 1) (0 : Fin 1)) = (V c main_arg12 : S1x1.Idx → EReal) (ix2 (0 : Fin 1) (0 : Fin 1)) := by
  obtain ⟨-, -, -, -, -, -, -, -, -, -, e0, e1, -⟩ := idx_facts t
  unfold iblk2
  rw [View.read_apply]
  show V c main_arg12 (((cfg2.win 3).blk t).view.emb (ix2 (0 : Fin 1) (0 : Fin 1))) = V c main_arg12 (ix2 (0 : Fin 1) (0 : Fin 1))
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

theorem blk4_apply (c : Dev nD) (t : Fin cfg2.N) :
    (iblk2 (F := Ideal) V c 4 t : Vec Ideal S1x1 .f32) (ix2 (0 : Fin 1) (0 : Fin 1)) = (V c main_v10 : S1x1.Idx → EReal) (ix2 (0 : Fin 1) (0 : Fin 1)) := by
  obtain ⟨-, -, -, -, -, -, -, -, -, -, -, -, e0, e1⟩ := idx_facts t
  unfold iblk2
  rw [View.read_apply]
  show V c main_v10 (((cfg2.win 4).blk t).view.emb (ix2 (0 : Fin 1) (0 : Fin 1))) = V c main_v10 (ix2 (0 : Fin 1) (0 : Fin 1))
  refine congrArg _ (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-- Two [1, 10000, 1] slabs agree when they agree at every (0, n, 0). -/
theorem slab_ext (X Y : Vec Ideal S1x10000x1 .f32) (h : ∀ n : Fin 10000, X (ix3 (0 : Fin 1) n (0 : Fin 1)) = Y (ix3 (0 : Fin 1) n (0 : Fin 1))) : X = Y := by
  funext j
  obtain ⟨u, n, z, rfl⟩ : ∃ (u : Fin 1) (n : Fin 10000) (z : Fin 1), j = ix3 u n z := ⟨j 0, j 1, j 2, eq_ix3 j⟩
  obtain rfl : u = 0 := Subsingleton.elim _ _
  obtain rfl : z = 0 := Subsingleton.elim _ _
  exact h n

/-- The readout is a function of its row, its weights and its three numbers. -/
theorem readout_congr {K : Nat} {x x' w w' : Fin K → EReal} {b1 b1' w2 w2' b2 b2' : EReal}
    (hx : ∀ k, x k = x' k) (hw : ∀ k, w k = w' k) (h1 : b1 = b1') (h2 : w2 = w2') (h3 : b2 = b2') :
    Cert.Spec.readout x w b1 w2 b2 = Cert.Spec.readout x' w' b1' w2' b2' := by
  rw [funext hx, funext hw, h1, h2, h3]

/-! ## What a point writes back -/

/-- Point t writes back slab t of the readout of the arrays the launch found. -/
theorem flushed_eq (c : Dev nD) (t : Fin cfg2.N) :
    (dat2 (F := Ideal) V c).flushed 5 t = ((cfg2.win 5).blk t).view.read (Elt Ideal)
      (Cert.Chain.vertK (V c main_v58) (V c main_v4) (V c main_v9) (V c main_arg12) (V c main_v10)) := by
  show (cfg2.win 5).cut (grid2.coords t) ((dat2 V c).after 5 t) = _
  rw [after2_5]
  unfold out2_5
  rw [View.canon_unit_zero hz]
  simp only [View.ld_unit_zero (S := S1x10000x32) hz, View.ld_unit_zero (S := S32x1) hz2, View.ld_unit_zero (S := S1x1) hz2]
  refine slab_ext (k2_pay1 (F := Ideal) (iblk2 V c 0 t) (iblk2 V c 1 t) (iblk2 V c 2 t) (iblk2 V c 3 t) (iblk2 V c 4 t))
    (((cfg2.win 5).blk t).view.read (Elt Ideal) (Cert.Chain.vertK (V c main_v58) (V c main_v4) (V c main_v9) (V c main_arg12) (V c main_v10))) fun n => ?_
  refine (pay_apply (iblk2 V c 0 t) (iblk2 V c 1 t) (iblk2 V c 2 t) (iblk2 V c 3 t) (iblk2 V c 4 t) n).trans ?_
  obtain ⟨-, -, -, e0, e1, e2, -⟩ := idx_facts t
  rw [View.read_apply]
  simp only [Cert.Chain.vertK, Cert.Chain.vertKC]
  refine readout_congr (fun k => ?_) (fun k => ?_) ?_ ?_ ?_
  · refine blk0_apply V c t n k _ ?_ ?_ rfl
    · show win2_5.index t (0 : Fin 3) * 1 + 1 * 0 = t.val; omega
    · show win2_5.index t (1 : Fin 3) * 10000 + 1 * n.val = n.val; omega
  · exact blk1_apply V c t k
  · exact blk2_apply V c t
  · exact blk3_apply V c t
  · exact blk4_apply V c t

/-! ## The slabs fill the array -/

/-- An entry of the node values' array is in point t's slab iff each coordinate is in the slab's range on its axis. -/
theorem mem_blk (t : Fin cfg2.N) (i : S8x10000x1.Idx) :
    i ∈ ((cfg2.win 5).blk t).view.set ↔ ∀ a : Fin 3, win2_5.index t a * S1x10000x1.size a ≤ (i a).val ∧ (i a).val < win2_5.index t a * S1x10000x1.size a + S1x10000x1.size a := by
  show i ∈ ((View.whole main_v59).slice (win2_5.rect t)).set ↔ _
  rw [View.set_slice_whole, Rect.mem_set_unit]
  exact Iff.rfl

/-- Entry (b, n, 0) lies in the slab of point b, and every point writes its slab back. -/
theorem cover (i : S8x10000x1.Idx) :
    ∃ t : Fin cfg2.N, (cfg2.win 5).flush t = true ∧ i ∈ ((cfg2.win 5).blk t).view.set := by
  have hi0 : (i 0).val < 8 := (i 0).isLt
  have hi1 : (i 1).val < 10000 := (i 1).isLt
  have hi2 : (i 2).val < 1 := (i 2).isLt
  obtain ⟨t, ht⟩ : ∃ t : Fin cfg2.N, t.val = (i 0).val :=
    ⟨⟨(i 0).val, by show (i 0).val < grid2.N; rw [N_2]; exact hi0⟩, rfl⟩
  obtain ⟨-, -, -, e0, e1, e2, -⟩ := idx_facts t
  refine ⟨t, flush2_5 t, ?_⟩
  rw [mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 10000 ≤ (i 1).val ∧ (i 1).val < win2_5.index t (1 : Fin 3) * 10000 + 10000; omega
  | ⟨2, _⟩ => show win2_5.index t (2 : Fin 3) * 1 ≤ (i 2).val ∧ (i 2).val < win2_5.index t (2 : Fin 3) * 1 + 1; omega

/-- After the launch the node values' array holds the readout of every mean-message row. -/
theorem arr (c : Dev nD) :
    (dat2 (F := Ideal) V c).arrAt 5 cfg2.N
      = Cert.Chain.vertK (V c main_v58) (V c main_v4) (V c main_v9) (V c main_arg12) (V c main_v10) :=
  (dat2 (F := Ideal) V c).arrAt_eq_of_cover 5
    (Cert.Chain.vertK (V c main_v58) (V c main_v4) (V c main_v9) (V c main_arg12) (V c main_v10))
    (fun t _ => flushed_eq V c t) cover

end Cert.KernelIdeal.Vert

end
-- ==== Proof.Layout.lean ====
/-
  The launches receive the weights transposed to (in, out) and the biases reshaped to one row; read at an index those
  are the arguments' own entries, so each stage over the launch's operands is the stage over the arguments.
-/
import proofs.«117053_j78151224918081_1_alg».proof.Proof.Chain
import Idealize.ShloMosaic.Lib.Pipeline.Value
import Idealize.ShloMosaic.Lib.ValueIdx
import Idealize.ShloMosaic.Lib.ValueLayout

set_option maxRecDepth 16384

noncomputable section

namespace Cert.Chain.Layout

open Cert.KernelIdeal Cert.KernelIdeal.Gen Cert.Chain Idealize.ShloMosaic Idealize.ShloMosaic.ValueIdx

theorem node (X : S8x10000x11.Idx → EReal) (W1 : S32x11.Idx → EReal) (b1 : S32.Idx → EReal) (W2 : S32x32.Idx → EReal) (b2 : S32.Idx → EReal) :
    nodeK X (transpose S11x32 [1, 0] W1 transposes_S32x11_S11x32_1_0) (shapeCast S1x32 b1 shapeCasts_S32_S1x32)
        (transpose S32x32 [1, 0] W2 transposes_S32x32_S32x32_1_0) (shapeCast S1x32 b2 shapeCasts_S32_S1x32)
      = nodeArr X W1 b1 W2 b2 := by
  funext i
  obtain ⟨b, n, h, rfl⟩ : ∃ (b : Fin 8) (n : Fin 10000) (h : Fin 32), i = ix3 b n h := ⟨i 0, i 1, i 2, eq_ix3 i⟩
  show nodeKC X _ _ _ _ b n h = nodeC X W1 b1 W2 b2 b n h
  unfold nodeKC nodeC
  have e1 : ∀ (f : Fin 11) (k : Fin 32), transpose S11x32 [1, 0] W1 transposes_S32x11_S11x32_1_0 (ix2 f k) = W1 (ix2 k f) :=
    fun f k => transpose_ix2_apply W1 _ f k
  have e2 : ∀ (k h : Fin 32), transpose S32x32 [1, 0] W2 transposes_S32x32_S32x32_1_0 (ix2 k h) = W2 (ix2 h k) :=
    fun k h => transpose_ix2_apply W2 _ k h
  have e3 : ∀ (k : Fin 32), shapeCast S1x32 b1 shapeCasts_S32_S1x32 (ix2 0 k) = b1 (ix1 k) :=
    fun k => shapeCast_a_1a_apply b1 _ 0 k
  have e4 : ∀ (k : Fin 32), shapeCast S1x32 b2 shapeCasts_S32_S1x32 (ix2 0 k) = b2 (ix1 k) :=
    fun k => shapeCast_a_1a_apply b2 _ 0 k
  simp only [e1, e2, e3, e4]

theorem edge (P : S8x320000x64.Idx → EReal) (We1 : S32x64.Idx → EReal) (be1 : S32.Idx → EReal) (We2 : S32x32.Idx → EReal) (be2 : S32.Idx → EReal) :
    edgeK P (transpose S64x32 [1, 0] We1 transposes_S32x64_S64x32_1_0) (shapeCast S1x32 be1 shapeCasts_S32_S1x32)
        (transpose S32x32 [1, 0] We2 transposes_S32x32_S32x32_1_0) (shapeCast S1x32 be2 shapeCasts_S32_S1x32)
      = edgeArr P We1 be1 We2 be2 := by
  funext i
  obtain ⟨b, e, h, rfl⟩ : ∃ (b : Fin 8) (e : Fin 320000) (h : Fin 32), i = ix3 b e h := ⟨i 0, i 1, i 2, eq_ix3 i⟩
  show edgeKC P _ _ _ _ b e h = edgeC P We1 be1 We2 be2 b e h
  unfold edgeKC edgeC
  have e1 : ∀ (f : Fin 64) (k : Fin 32), transpose S64x32 [1, 0] We1 transposes_S32x64_S64x32_1_0 (ix2 f k) = We1 (ix2 k f) :=
    fun f k => transpose_ix2_apply We1 _ f k
  have e2 : ∀ (k h : Fin 32), transpose S32x32 [1, 0] We2 transposes_S32x32_S32x32_1_0 (ix2 k h) = We2 (ix2 h k) :=
    fun k h => transpose_ix2_apply We2 _ k h
  have e3 : ∀ (k : Fin 32), shapeCast S1x32 be1 shapeCasts_S32_S1x32 (ix2 0 k) = be1 (ix1 k) :=
    fun k => shapeCast_a_1a_apply be1 _ 0 k
  have e4 : ∀ (k : Fin 32), shapeCast S1x32 be2 shapeCasts_S32_S1x32 (ix2 0 k) = be2 (ix1 k) :=
    fun k => shapeCast_a_1a_apply be2 _ 0 k
  simp only [e1, e2, e3, e4]

theorem vert (A : S8x10000x32.Idx → EReal) (Wv1 : S1x32.Idx → EReal) (bv1 : S1.Idx → EReal) (Wv2 : S1x1.Idx → EReal) (bv2 : S1.Idx → EReal) :
    vertK A (transpose S32x1 [1, 0] Wv1 transposes_S1x32_S32x1_1_0) (shapeCast S1x1 bv1 shapeCasts_S1_S1x1) Wv2
        (shapeCast S1x1 bv2 shapeCasts_S1_S1x1)
      = vertArr A Wv1 bv1 Wv2 bv2 := by
  funext i
  show vertKC A _ _ Wv2 _ (i 0) (i 1) = vertC A Wv1 bv1 Wv2 bv2 (i 0) (i 1)
  unfold vertKC vertC
  have e1 : ∀ (k : Fin 32), transpose S32x1 [1, 0] Wv1 transposes_S1x32_S32x1_1_0 (ix2 k 0) = Wv1 (ix2 0 k) :=
    fun k => transpose_ix2_apply Wv1 _ k 0
  have e3 : shapeCast S1x1 bv1 shapeCasts_S1_S1x1 (ix2 0 0) = bv1 (ix1 0) := shapeCast_a_1a_apply bv1 _ 0 0
  have e4 : shapeCast S1x1 bv2 shapeCasts_S1_S1x1 (ix2 0 0) = bv2 (ix1 0) := shapeCast_a_1a_apply bv2 _ 0 0
  simp only [e1, e3, e4]

end Cert.Chain.Layout

end
-- ==== Proof.KValue.lean ====
/-
  The kernel program's result as the network function of its arguments: each launch's output array is its stage of
  what it found in its windows (Node, Edge, Vert), what it found is the host stretch before it applied to the launch
  before (KHost), and the launches' operand layout is the arguments' (Layout).
-/
import proofs.«117053_j78151224918081_1_alg».proof.Proof.KHost
import proofs.«117053_j78151224918081_1_alg».proof.Proof.Node
import proofs.«117053_j78151224918081_1_alg».proof.Proof.Edge
import proofs.«117053_j78151224918081_1_alg».proof.Proof.Vert
import proofs.«117053_j78151224918081_1_alg».proof.Proof.Layout

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The embeddings after the first launch. -/
theorem node (c : Dev nD) : V2 m ρ c main_v11 = Cert.Chain.nodeArr (m ((c : Thread nD τ).loc main_arg0)) (m ((c : Thread nD τ).loc main_arg2)) (m ((c : Thread nD τ).loc main_arg3)) (m ((c : Thread nD τ).loc main_arg4)) (m ((c : Thread nD τ).loc main_arg5)) := by
  have h : V2 m ρ c main_v11 = (dat0 (V1 m ρ) c).arrAt 5 cfg0.N := W2_arr m ρ c 5
  rw [h, Node.arr (V1 m ρ) c, KHost.V1_arg0, KHost.V1_v0, KHost.V1_v5, KHost.V1_v1, KHost.V1_v6]
  exact Cert.Chain.Layout.node _ _ _ _ _

/-- The messages after the second launch. -/
theorem edge (c : Dev nD) : V4 m ρ c main_v31
    = Cert.Chain.edgeArr (Cert.Chain.pairOf (Cert.Chain.nodeArr (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9)) := by
  have h : V4 m ρ c main_v31 = (dat1 (V3 m ρ) c).arrAt 5 cfg1.N := W4_arr m ρ c 5
  rw [h, Edge.arr (V3 m ρ) c, KHost.V3_v30, KHost.V3_v2, KHost.V3_v7, KHost.V3_v3, KHost.V3_v8, node]
  exact Cert.Chain.Layout.edge _ _ _ _ _

/-- The node values after the third launch. -/
theorem vert (c : Dev nD) : V6 m ρ c main_v59
    = Cert.Chain.vertArr (Cert.Chain.aggOf (Cert.Chain.edgeArr (Cert.Chain.pairOf (Cert.Chain.nodeArr (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9))) (m ((c : Thread nD τ).loc main_arg1))) (m ((c : Thread nD τ).loc main_arg10)) (m ((c : Thread nD τ).loc main_arg11)) (m ((c : Thread nD τ).loc main_arg12)) (m ((c : Thread nD τ).loc main_arg13)) := by
  have h : V6 m ρ c main_v59 = (dat2 (V5 m ρ) c).arrAt 5 cfg2.N := W6_arr m ρ c 5
  rw [h, Vert.arr (V5 m ρ) c, KHost.V5_v58, KHost.V5_v4, KHost.V5_v9, KHost.V5_arg12, KHost.V5_v10, edge]
  exact Cert.Chain.Layout.vert _ _ _ _ _

/-- The result buffer at the end of @main. -/
theorem result (c : Dev nD) : W7 m ρ c (Proc.devRef .tc main_v71) = Cert.Chain.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [KHost.W7_v71, vert]
  rfl

end Cert.KernelIdeal.KValue

end
-- ==== Proof.RefValue.lean ====
/-
  The reference program's result as the network function of its arguments. Its three perceptron stages are einsums
  followed by a bias and a rectifier; read at an index each is the stage's arithmetic over the arguments' own entries.
  The operations between the stages are the kernel program's, applied to the stage before.
-/
import proofs.«117053_j78151224918081_1_alg».proof.Proof.Gen.ReferenceIdeal.Run
import proofs.«117053_j78151224918081_1_alg».proof.Proof.Gen.ReferenceIdeal.Read
import proofs.«117053_j78151224918081_1_alg».proof.Proof.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 : S8x10000x11.Idx → EReal) (x1 : IVec S2x320000 32) (x2 : S32x11.Idx → EReal) (x3 : S32.Idx → EReal)
    (x4 : S32x32.Idx → EReal) (x5 : S32.Idx → EReal) (x6 : S32x64.Idx → EReal) (x7 : S32.Idx → EReal)
    (x8 : S32x32.Idx → EReal) (x9 : S32.Idx → EReal) (x10 : S1x32.Idx → EReal) (x11 : S1.Idx → EReal)
    (x12 : S1x1.Idx → EReal) (x13 : S1.Idx → EReal) (x14 : S1x10000.Idx → EReal) (x15 : S1.Idx → EReal)

/-- The node embeddings (`%9`): two einsums, each plus its bias and rectified. -/
theorem node_eq : val_main_v9 (F := Ideal) x0 x2 x3 x4 x5 = Cert.Chain.nodeArr x0 x2 x3 x4 x5 := by
  funext i
  rw [val_main_v9_apply, val_main_v8_apply, val_main_v5_apply, val_main_v7_apply, val_main_v6_apply,
    val_main_call1_v0_apply, val_main_call1_cst_apply]
  simp only [val_main_v4_apply, val_main_v3_apply, val_main_v0_apply, val_main_v2_apply, val_main_v1_apply,
    val_main_call0_v0_apply, val_main_call0_cst_apply]
  unfold Cert.Chain.nodeArr Cert.Chain.nodeC Cert.Spec.mlp2 Cert.Spec.relu
  -- the composed index maps are the coordinate constructors
  have e1 : ∀ (k : Fin 32) (f : Fin 11), lidx_main_v0 (lidx_main_v5 i k) f = ix3 (i 0) (i 1) f := fun k f =>
    funext fun a => by match a with | ⟨0, _⟩ => rfl | ⟨1, _⟩ => rfl | ⟨2, _⟩ => rfl
  have e2 : ∀ (k : Fin 32) (f : Fin 11), ridx_main_v0 (lidx_main_v5 i k) f = ix2 k f := fun k f =>
    funext fun a => by match a with | ⟨0, _⟩ => rfl | ⟨1, _⟩ => rfl
  have e3 : ∀ (k : Fin 32), idx_main_v1 (idx_main_v2 (lidx_main_v5 i k)) = ix1 k := fun k =>
    funext fun a => by match a with | ⟨0, _⟩ => rfl
  have e4 : ∀ (k : Fin 32), ridx_main_v5 i k = ix2 (i 2) k := fun k =>
    funext fun a => by match a with | ⟨0, _⟩ => rfl | ⟨1, _⟩ => rfl
  have e5 : idx_main_v6 (idx_main_v7 i) = ix1 (i 2) :=
    funext fun a => by match a with | ⟨0, _⟩ => rfl
  simp only [e1, e2, e3, e4, e5]
  rfl

/-- The edge features (`%28`) are the shared gather-and-join of the embeddings. -/
theorem pair_eq : val_main_v28 (F := Ideal) x0 x1 x2 x3 x4 x5 = Cert.Chain.pairOf (val_main_v9 (F := Ideal) x0 x2 x3 x4 x5) x1 := by
  unfold val_main_v28 val_main_v18 val_main_v27 val_main_v17 val_main_v26 val_main_v16 val_main_v25
    val_main_v15 val_main_v24 val_main_v13 val_main_v22 val_main_v14 val_main_v23 val_main_v12 val_main_v21
    val_main_v11 val_main_v20 val_main_v10 val_main_v19 val_main_c val_main_c_0 val_main_c_1 val_main_c_2
    Cert.Chain.pairOf Cert.Chain.endpoint0 Cert.Chain.endpoint1
  rfl

/-- The messages (`%38`): the edge perceptron of the edge features. -/
theorem edge_eq : val_main_v38 (F := Ideal) x0 x1 x2 x3 x4 x5 x6 x7 x8 x9
    = Cert.Chain.edgeArr (val_main_v28 (F := Ideal) x0 x1 x2 x3 x4 x5) x6 x7 x8 x9 := by
  funext i
  rw [val_main_v38_apply, val_main_v37_apply, val_main_v34_apply, val_main_v36_apply, val_main_v35_apply,
    val_main_call3_v0_apply, val_main_call3_cst_apply]
  simp only [val_main_v33_apply, val_main_v32_apply, val_main_v29_apply, val_main_v31_apply, val_main_v30_apply,
    val_main_call2_v0_apply, val_main_call2_cst_apply]
  unfold Cert.Chain.edgeArr Cert.Chain.edgeC Cert.Spec.mlp2 Cert.Spec.relu
  -- the composed index maps are the coordinate constructors
  have e1 : ∀ (k : Fin 32) (f : Fin 64), lidx_main_v29 (lidx_main_v34 i k) f = ix3 (i 0) (i 1) f := fun k f =>
    funext fun a => by match a with | ⟨0, _⟩ => rfl | ⟨1, _⟩ => rfl | ⟨2, _⟩ => rfl
  have e2 : ∀ (k : Fin 32) (f : Fin 64), ridx_main_v29 (lidx_main_v34 i k) f = ix2 k f := fun k f =>
    funext fun a => by match a with | ⟨0, _⟩ => rfl | ⟨1, _⟩ => rfl
  have e3 : ∀ (k : Fin 32), idx_main_v30 (idx_main_v31 (lidx_main_v34 i k)) = ix1 k := fun k =>
    funext fun a => by match a with | ⟨0, _⟩ => rfl
  have e4 : ∀ (k : Fin 32), ridx_main_v34 i k = ix2 (i 2) k := fun k =>
    funext fun a => by match a with | ⟨0, _⟩ => rfl | ⟨1, _⟩ => rfl
  have e5 : idx_main_v35 (idx_main_v36 i) = ix1 (i 2) :=
    funext fun a => by match a with | ⟨0, _⟩ => rfl
  simp only [e1, e2, e3, e4, e5]
  rfl

/-- The mean messages (`%64`) are the shared scatter-mean of the messages. -/
theorem agg_eq : val_main_v64 (F := Ideal) x0 x1 x2 x3 x4 x5 x6 x7 x8 x9
    = Cert.Chain.aggOf (val_main_v38 (F := Ideal) x0 x1 x2 x3 x4 x5 x6 x7 x8 x9) x1 := by
  unfold val_main_v64 val_main_v63 val_main_v62 val_main_v61 val_main_v60 val_main_cst_9 val_main_v59 val_main_v58
    val_main_cst_8 val_main_v57 val_main_v56 val_main_v55 val_main_v54 val_main_c_7 val_main_v53 val_main_v52
    val_main_c_6 val_main_v51 val_main_v50 val_main_v49 val_main_cst_5 val_main_v48 val_main_v47 val_main_v46
    val_main_v45 val_main_v44 val_main_c_4 val_main_v43 val_main_v42 val_main_c_3 val_main_v41 val_main_v40
    val_main_v39 val_main_cst
    Cert.Chain.aggOf Cert.Chain.endpoint1
  rfl

/-- The node values (`%76`): the readout of the mean messages. -/
theorem vert_eq : val_main_v76 (F := Ideal) x0 x1 x2 x3 x4 x5 x6 x7 x8 x9 x10 x11 x12 x13
    = Cert.Chain.vertArr (val_main_v64 (F := Ideal) x0 x1 x2 x3 x4 x5 x6 x7 x8 x9) x10 x11 x12 x13 := by
  funext i
  rw [val_main_v76_apply, val_main_v75_apply, val_main_v74_apply, val_main_v73_apply, val_main_v72_apply,
    val_main_v71_apply, val_main_v69_apply, val_main_v68_apply, val_main_v65_apply, val_main_v67_apply,
    val_main_v66_apply, val_main_call5_v0_apply, val_main_call5_cst_apply, val_main_call4_v0_apply,
    val_main_call4_cst_apply]
  -- the rank-0 reshape of the one-entry matrix reads its only entry
  have h70 : val_main_v70 (F := Ideal) x12 (idx_main_v71 i) = x12 (ix2 0 0) := by
    unfold val_main_v70
    refine shapeCast_apply x12 shapeCasts_S1x1_S_ _ _ ?_
    rw [Shape.rowMajor_val_two]
    exact (Shape.rowMajorPi_zero _ _).symm
  rw [h70]
  unfold Cert.Chain.vertArr Cert.Chain.vertC Cert.Spec.readout Cert.Spec.relu
  -- the composed index maps are the coordinate constructors; the last axis of the result has one entry
  have e1 : ∀ (k : Fin 32), lidx_main_v65 i k = ix3 (i 0) (i 1) k := fun k =>
    funext fun a => by match a with | ⟨0, _⟩ => rfl | ⟨1, _⟩ => rfl | ⟨2, _⟩ => rfl
  have e2 : ∀ (k : Fin 32), ridx_main_v65 i k = ix2 0 k := fun k =>
    funext fun a => by
      match a with
      | ⟨0, _⟩ => exact Subsingleton.elim (α := Fin 1) _ _
      | ⟨1, _⟩ => rfl
  have e3 : idx_main_v66 (idx_main_v67 i) = ix1 0 :=
    funext fun a => by match a with | ⟨0, _⟩ => rfl
  have e4 : idx_main_v73 (idx_main_v74 i) = ix1 0 :=
    funext fun a => by match a with | ⟨0, _⟩ => rfl
  simp only [e1, e2, e3, e4]
  rfl

/-- The result (`%88`) is the shared graph readout of the node values. -/
theorem tail_eq : val_main_v88 (F := Ideal) x0 x1 x2 x3 x4 x5 x6 x7 x8 x9 x10 x11 x12 x13 x14 x15
    = Cert.Chain.tailOf (val_main_v76 (F := Ideal) x0 x1 x2 x3 x4 x5 x6 x7 x8 x9 x10 x11 x12 x13) x14 x15 := by
  unfold val_main_v88 val_main_v87 val_main_cst_11 val_main_v86 val_main_v85 val_main_cst_10 val_main_v84 val_main_v83
    val_main_v82 val_main_v81 val_main_v80 val_main_v79 val_main_v78 val_main_v77
    Cert.Chain.tailOf
  rfl

/-- The reference's result term is the network function of the launch contents of its arguments. -/
theorem result (m : (ℓ : Loc nD τ sig) → Buf (Elt Ideal) ℓ) (c : Dev nD) :
    Cert.ReferenceIdeal.Value.res_main_v88 (F := Ideal) m c
      = Cert.Chain.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [val_main_v88_eq, tail_eq, vert_eq, agg_eq, edge_eq, pair_eq, node_eq]
  rfl

end Cert.ReferenceIdeal.RefValue

end
-- ==== Proof.lean ====
/-
  A graph network of three perceptron stages — node embeddings, edge messages, node readout — joined by a row gather
  at the edges' endpoints, a scatter-mean into the edges' targets and a logistic graph readout, computed by a program of
  three tiled launches against a plain array program. On the extended reals a change of float format is the identity
  and a tile's matrix product into a zero accumulator is the einsum's sum, so each launch's output array is, entry by
  entry, the stage of the reference (Node, Edge, Vert; RefValue), over operands that differ only in layout (Layout);
  the operations between the stages are the same in both programs and are carried as one function each (Chain).
  No law beyond the definitions is used: both sides sum the same products in the same order of factors, so the
  finiteness of the inputs is never opened.
-/
import proofs.«117053_j78151224918081_1_alg».proof.Defs
import proofs.«117053_j78151224918081_1_alg».proof.Proof.Gen.Kernel
import proofs.«117053_j78151224918081_1_alg».proof.Proof.Gen.Kernel.Frame
import proofs.«117053_j78151224918081_1_alg».proof.Proof.Gen.KernelIdeal
import proofs.«117053_j78151224918081_1_alg».proof.Proof.Gen.KernelIdeal.Frame
import proofs.«117053_j78151224918081_1_alg».proof.Proof.Gen.ReferenceIdeal
import proofs.«117053_j78151224918081_1_alg».proof.Proof.Gen.ReferenceIdeal.Run
import proofs.«117053_j78151224918081_1_alg».proof.Proof.Gen.Pre_finite_inputs
import proofs.«117053_j78151224918081_1_alg».proof.Proof.KRun
import proofs.«117053_j78151224918081_1_alg».proof.Proof.KValue
import proofs.«117053_j78151224918081_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of their arguments in the result buffer; the arguments agree. -/
theorem algebraic : Cert.algebraic_KernelIdeal_ReferenceIdeal := by
  intro m ρ m' ρ' _ hagree
  refine ⟨fun c => Cert.Chain.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KValue.result m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result]
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
